-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x1024 : Shape := ⟨2, ![128, 1024]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg4 : FVec F S1024x128 .f32) (main_arg5 : FVec F S1024x128 .f32) (main_arg6 : FVec F S128x1024 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128x1024 .f32 := Host.absf main_arg6
  let main_cst_10 : FVec F S_ .f32 := constant S_ .f32 0x7F800000#32
  let main_v30 : FVec F S128x1024 .f32 := broadcastInDim S128x1024 ![] bcast_S_S128x1024 main_cst_10
  let main_v31 : IVec S128x1024 1 := cmpf .olt main_v29 main_v30
  let main_c_11 : IVec S_ 1 := constantI S_ 1 1#1
  let main_v32 : IVec S_ 1 := (fun x v => Host.reduce IntOp.andi x v reducesTo_S128x1024_S_d0_1 h_S_) main_v31 main_c_11
  let main_v33 : IVec S_ 1 := andi main_v28 main_v32
  main_v33

def fn {F : FTy → Type} [FloatOps F] (main_arg0 : FVec F S1024x128 .f32) (main_arg1 : FVec F S1024x1024 .f32) (main_arg2 : FVec F S1024x1024 .f32) (main_arg3 : FVec F S1024x128 .f32) (main_arg4 : FVec F S1024x128 .f32) (main_arg5 : FVec F S1024x128 .f32) (main_arg6 : FVec F S128x1024 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S1024x128 : Shape := ⟨2, ![1024, 128]⟩
abbrev S1024x1024 : Shape := ⟨2, ![1024, 1024]⟩
abbrev S128x1024 : Shape := ⟨2, ![128, 1024]⟩
abbrev S128x1024x8 : Shape := ⟨3, ![128, 1024, 8]⟩
abbrev S128x8x1024 : Shape := ⟨3, ![128, 8, 1024]⟩
abbrev S_ : Shape := ⟨0, ![]⟩
abbrev S128x1x1024 : Shape := ⟨3, ![128, 1, 1024]⟩
abbrev S128x9x1024 : Shape := ⟨3, ![128, 9, 1024]⟩
abbrev S64x8x256 : Shape := ⟨3, ![64, 8, 256]⟩
abbrev S64x9x256 : Shape := ⟨3, ![64, 9, 256]⟩
abbrev S256x256 : Shape := ⟨2, ![256, 256]⟩
abbrev S64x256x256 : Shape := ⟨3, ![64, 256, 256]⟩
abbrev S1x256x256 : Shape := ⟨3, ![1, 256, 256]⟩
abbrev S64x1x256 : Shape := ⟨3, ![64, 1, 256]⟩

abbrev nBuf : Space → Nat
  | .hbm => 32
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S128x1024, .f32⟩
  | .hbm, ⟨10, _⟩ => ⟨S1024x1024, .f32⟩
  | .hbm, ⟨11, _⟩ => ⟨S128x1024, .f32⟩
  | .hbm, ⟨12, _⟩ => ⟨S1024x1024, .f32⟩
  | .hbm, ⟨13, _⟩ => ⟨S128x1024x8, .f32⟩
  | .hbm, ⟨14, _⟩ => ⟨S128x8x1024, .f32⟩
  | .hbm, ⟨15, _⟩ => ⟨S128x8x1024, .bf16⟩
  | .hbm, ⟨16, _⟩ => ⟨S128x1024x8, .f32⟩
  | .hbm, ⟨17, _⟩ => ⟨S128x8x1024, .f32⟩
  | .hbm, ⟨18, _⟩ => ⟨S128x8x1024, .bf16⟩
  | .hbm, ⟨19, _⟩ => ⟨S128x1024x8, .f32⟩
  | .hbm, ⟨20, _⟩ => ⟨S128x8x1024, .f32⟩
  | .hbm, ⟨21, _⟩ => ⟨S128x8x1024, .bf16⟩
  | .hbm, ⟨22, _⟩ => ⟨S_, .bf16⟩
  | .hbm, ⟨23, _⟩ => ⟨S128x1x1024, .bf16⟩
  | .hbm, ⟨24, _⟩ => ⟨S128x9x1024, .bf16⟩
  | .hbm, ⟨25, _⟩ => ⟨S1024x1024, .f32⟩
  | .hbm, ⟨26, _⟩ => ⟨S1024x1024, .f32⟩
  | .hbm, ⟨27, _⟩ => ⟨S128x8x1024, .f32⟩
  | .hbm, ⟨28, _⟩ => ⟨S128x1024x8, .f32⟩
  | .hbm, ⟨29, _⟩ => ⟨S1024x1024, .f32⟩
  | .hbm, ⟨30, _⟩ => ⟨S1024x128, .f32⟩
  | .hbm, ⟨31, _⟩ => ⟨S1024x128, .f32⟩
  | .local _ .vmem, ⟨0, _⟩ => ⟨S64x8x256, .bf16⟩
  | .local _ .vmem, ⟨1, _⟩ => ⟨S64x8x256, .bf16⟩
  | .local _ .vmem, ⟨2, _⟩ => ⟨S64x8x256, .bf16⟩
  | .local _ .vmem, ⟨3, _⟩ => ⟨S64x8x256, .bf16⟩
  | .local _ .vmem, ⟨4, _⟩ => ⟨S64x9x256, .bf16⟩
  | .local _ .vmem, ⟨5, _⟩ => ⟨S64x9x256, .bf16⟩
  | .local _ .vmem, ⟨6, _⟩ => ⟨S256x256, .f32⟩
  | .local _ .vmem, ⟨7, _⟩ => ⟨S256x256, .f32⟩
  | .local _ .vmem, ⟨8, _⟩ => ⟨S64x8x256, .f32⟩
  | .local _ .vmem, ⟨9, _⟩ => ⟨S64x8x256, .f32⟩
  | .local _ .vmem, ⟨10, _⟩ => ⟨S64x9x256, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_19 : BitVec 32 := 0#32
  let v27 : BitVec 1 := Scalar.cmpi .ne v26 c0_i32_19
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S64x8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S64x8x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S64x9x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S64x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S1024x128_S128x1024_1_0 : S1024x128.Transposes [1, 0] S128x1024
  shapeCasts_S1024x1024_S128x1024x8 : S1024x1024.ShapeCasts S128x1024x8
  transposes_S128x1024x8_S128x8x1024_0_2_1 : S128x1024x8.Transposes [0, 2, 1] S128x8x1024
  bitsLt_bf16_f32 : FTy.bits .bf16 < FTy.bits .f32
  bcast_S_S128x1x1024 : S_.BroadcastsInDim S128x1x1024 (![] : Fin 0 → Fin S128x1x1024.rank)
  concatenates_S128x8x1024_S128x1x1024_S128x9x1024_d1 : Shape.Concatenates [S128x8x1024, S128x1x1024] S128x9x1024 1
  transposes_S1024x1024_S1024x1024_1_0 : S1024x1024.Transposes [1, 0] S1024x1024
  inb_S64x9x256_S64x9x256_0_0_0 : ∀ a, (![0, 0, 0] : Fin 3 → Nat) a + S64x9x256.size a ≤ S64x9x256.size a
  h_S64x9x256 : 0 < S64x9x256.numel
  shapeCasts_S64x9x256_S64x9x256 : S64x9x256.ShapeCasts S64x9x256
  inb_S64x8x256_S64x8x256_0_0_0 : ∀ a, (![0, 0, 0] : Fin 3 → Nat) a + S64x8x256.size a ≤ S64x8x256.size a
  h_S64x8x256 : 0 < S64x8x256.numel
  shapeCasts_S64x8x256_S64x8x256 : S64x8x256.ShapeCasts S64x8x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  broadcasts_S1x256x256_S64x256x256 : S1x256x256.Broadcasts S64x256x256
  slices_S64x9x256_o0_8_0_S64x1x256 : S64x9x256.Slices ![0, 8, 0] S64x1x256
  slices_S64x9x256_o0_0_0_S64x8x256 : S64x9x256.Slices ![0, 0, 0] S64x8x256
  broadcasts_S64x1x256_S64x8x256 : S64x1x256.Broadcasts S64x8x256
  transposes_S128x8x1024_S128x1024x8_0_2_1 : S128x8x1024.Transposes [0, 2, 1] S128x1024x8
  shapeCasts_S128x1024x8_S1024x1024 : S128x1024x8.ShapeCasts S1024x1024
  transposes_S128x1024_S1024x128_1_0 : S128x1024.Transposes [1, 0] S1024x128
  dot_S1024x128_S128x1024_S1024x1024_1_0_0_1_n_n_wf : DotDims.WF S1024x128 S128x1024 S1024x1024 [1] [0] [0] [1] [] []
  dot_S64x8x256_S64x8x256_S64x256x256_1_1_2_2_0_0_wf : DotDims.WF S64x8x256 S64x8x256 S64x256x256 [1] [1] [2] [2] [0] [0]
  dot_S64x9x256_S64x256x256_S64x9x256_2_1_1_2_0_0_wf : DotDims.WF S64x9x256 S64x256x256 S64x9x256 [2] [1] [1] [2] [0] [0]
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x256.size a ≤ S128x8x1024.size a
  hwx0_0 : ∀ i : grid0.Coords, EltTy.bits .bf16 = 32 ∨ (Rect.block (s := S128x8x1024) S64x8x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x256.size a ≤ S128x8x1024.size a
  hwx0_1 : ∀ i : grid0.Coords, EltTy.bits .bf16 = 32 ∨ (Rect.block (s := S128x8x1024) S64x8x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x9x256.size a ≤ S128x9x1024.size a
  hwx0_2 : ∀ i : grid0.Coords, EltTy.bits .bf16 = 32 ∨ (Rect.block (s := S128x9x1024) S64x9x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x1024.size a
  hwx0_3 : ∀ i : grid0.Coords, EltTy.bits .f32 = 32 ∨ (Rect.block (s := S1024x1024) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8x256.size a ≤ S128x8x1024.size a
  hwx0_4 : ∀ i : grid0.Coords, EltTy.bits .f32 = 32 ∨ (Rect.block (s := S128x8x1024) S64x8x256.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S64x8x256_S64x8x256_S64x256x256_1_1_2_2_0_0 : DotDims S64x8x256 S64x8x256 S64x256x256 where
  lhsContracting := [1]
  rhsContracting := [1]
  lhsNonContracting := [2]
  rhsNonContracting := [2]
  lhsBatch := [0]
  rhsBatch := [0]
  wf := dot_S64x8x256_S64x8x256_S64x256x256_1_1_2_2_0_0_wf
def dot_S64x9x256_S64x256x256_S64x9x256_2_1_1_2_0_0 : DotDims S64x9x256 S64x256x256 S64x9x256 where
  lhsContracting := [2]
  rhsContracting := [1]
  lhsNonContracting := [1]
  rhsNonContracting := [2]
  lhsBatch := [0]
  rhsBatch := [0]
  wf := dot_S64x9x256_S64x256x256_S64x9x256_2_1_1_2_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v8) S64x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x9x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x1024 : Shape := ⟨2, ![1024, 1024]⟩
abbrev S128x1024 : Shape := ⟨2, ![128, 1024]⟩
abbrev S128x1024x8 : Shape := ⟨3, ![128, 1024, 8]⟩
abbrev S128x1024x1024 : Shape := ⟨3, ![128, 1024, 1024]⟩
abbrev S_ : Shape := ⟨0, ![]⟩
abbrev S1x1024x1024 : Shape := ⟨3, ![1, 1024, 1024]⟩
abbrev S128x1024x1 : Shape := ⟨3, ![128, 1024, 1]⟩

abbrev nBuf : Space → Nat
  | .hbm => 44
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S128x1024x8, .f32⟩
  | .hbm, ⟨10, _⟩ => ⟨S128x1024, .f32⟩
  | .hbm, ⟨11, _⟩ => ⟨S1024x1024, .f32⟩
  | .hbm, ⟨12, _⟩ => ⟨S128x1024x8, .f32⟩
  | .hbm, ⟨13, _⟩ => ⟨S128x1024, .f32⟩
  | .hbm, ⟨14, _⟩ => ⟨S1024x1024, .f32⟩
  | .hbm, ⟨15, _⟩ => ⟨S128x1024x8, .f32⟩
  | .hbm, ⟨16, _⟩ => ⟨S128x1024x1024, .f32⟩
  | .hbm, ⟨17, _⟩ => ⟨S_, .f32⟩
  | .hbm, ⟨18, _⟩ => ⟨S128x1024x1024, .f32⟩
  | .hbm, ⟨19, _⟩ => ⟨S128x1024x1024, .f32⟩
  | .hbm, ⟨20, _⟩ => ⟨S1x1024x1024, .f32⟩
  | .hbm, ⟨21, _⟩ => ⟨S128x1024x1024, .f32⟩
  | .hbm, ⟨22, _⟩ => ⟨S128x1024x1024, .f32⟩
  | .hbm, ⟨23, _⟩ => ⟨S1x1024x1024, .f32⟩
  | .hbm, ⟨24, _⟩ => ⟨S128x1024x1024, .f32⟩
  | .hbm, ⟨25, _⟩ => ⟨S128x1024x1024, .f32⟩
  | .hbm, ⟨26, _⟩ => ⟨S_, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024x1, .f32⟩
  | .hbm, ⟨32, _⟩ => ⟨S128x1024x1024, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S128x1024, .f32⟩
  | .hbm, ⟨37, _⟩ => ⟨S128x1024x1, .f32⟩
  | .hbm, ⟨38, _⟩ => ⟨S128x1024x1024, .f32⟩
  | .hbm, ⟨39, _⟩ => ⟨S128x1024x1024, .f32⟩
  | .hbm, ⟨40, _⟩ => ⟨S128x1024x8, .f32⟩
  | .hbm, ⟨41, _⟩ => ⟨S1024x1024, .f32⟩
  | .hbm, ⟨42, _⟩ => ⟨S1024x128, .f32⟩
  | .hbm, ⟨43, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  transposes_S1024x128_S128x1024_1_0 : S1024x128.Transposes [1, 0] S128x1024
  shapeCasts_S1024x1024_S128x1024x8 : S1024x1024.ShapeCasts S128x1024x8
  bcast_S_S128x1024x1024 : S_.BroadcastsInDim S128x1024x1024 (![] : Fin 0 → Fin S128x1024x1024.rank)
  bcast_S1024x1024_S1x1024x1024_1_2 : S1024x1024.BroadcastsInDim S1x1024x1024 (![1, 2] : Fin 2 → Fin S1x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  shapeCasts_S128x1024x8_S1024x1024 : S128x1024x8.ShapeCasts S1024x1024
  transposes_S128x1024_S1024x128_1_0 : S128x1024.Transposes [1, 0] S1024x128
  dot_S1024x128_S128x1024_S1024x1024_1_0_0_1_n_n_wf : DotDims.WF S1024x128 S128x1024 S1024x1024 [1] [0] [0] [1] [] []
  dot_S128x1024x8_S128x1024x8_S128x1024x1024_2_2_1_1_0_0_wf : DotDims.WF S128x1024x8 S128x1024x8 S128x1024x1024 [2] [2] [1] [1] [0] [0]
  dot_S128x1024x1024_S128x1024x8_S128x1024x8_2_1_1_2_0_0_wf : DotDims.WF S128x1024x1024 S128x1024x8 S128x1024x8 [2] [1] [1] [2] [0] [0]
  dot_S1024x1024_S1024x128_S1024x128_1_0_0_1_n_n_wf : DotDims.WF S1024x1024 S1024x128 S1024x128 [1] [0] [0] [1] [] []

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S128x1024x8_S128x1024x8_S128x1024x1024_2_2_1_1_0_0 : DotDims S128x1024x8 S128x1024x8 S128x1024x1024 where
  lhsContracting := [2]
  rhsContracting := [2]
  lhsNonContracting := [1]
  rhsNonContracting := [1]
  lhsBatch := [0]
  rhsBatch := [0]
  wf := dot_S128x1024x8_S128x1024x8_S128x1024x1024_2_2_1_1_0_0_wf
def dot_S128x1024x1024_S128x1024x8_S128x1024x8_2_1_1_2_0_0 : DotDims S128x1024x1024 S128x1024x8 S128x1024x8 where
  lhsContracting := [2]
  rhsContracting := [1]
  lhsNonContracting := [1]
  rhsNonContracting := [2]
  lhsBatch := [0]
  rhsBatch := [0]
  wf := dot_S128x1024x1024_S128x1024x8_S128x1024x8_2_1_1_2_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.KPieces.lean ====
/-
  What each control case of the kernel body leaves behind, as values.

  The body has three cases by the key-block coordinate: the first key block (the scratch accumulator is reset to
  zero, then the block's contribution is added), a middle key block (the contribution is added to what the point
  before left), and the last key block (the same, and then the output block is written from the accumulator).
  Read back through the covering stores, the scratch ends at the accumulation payload over the reset value or over
  the carried value, and the output block at the finalisation payload of that.
-/
import proofs.«409010_j66297115181077_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a rank-3 block, as the constant function. -/
private theorem hz : (![0, 0, 0] : Fin 3 → Nat) = fun _ => 0 := funext fun a => by fin_cases a <;> rfl

/-- The zero offsets of a rank-2 block, as the constant function. -/
private theorem hz2 : (![0, 0] : Fin 2 → Nat) = fun _ => 0 := funext fun a => by fin_cases a <;> rfl

/-- First key block: the scratch ends at the contribution added to the reset value. -/
theorem scratch_first (c : Dev nD) (i : grid0.Coords) (arg3 : Memref sig .tc .vmem S64x8x256 .bf16) (harg3 : arg3.IsWhole) (arg4 : Memref sig .tc .vmem S64x8x256 .bf16) (harg4 : arg4.IsWhole) (arg5 : Memref sig .tc .vmem S64x9x256 .bf16) (harg5 : arg5.IsWhole) (arg6 : Memref sig .tc .vmem S256x256 .f32) (harg6 : arg6.IsWhole) (arg7 : Memref sig .tc .vmem S64x8x256 .f32) (harg7 : arg7.IsWhole) (arg8 : Memref sig .tc .vmem S64x9x256 .f32) (harg8 : arg8.IsWhole) (hc0 : cond0_0 i) (hc1 : ¬cond0_1 i)
    (x0 : Vec F S64x8x256 .bf16) (x1 : Vec F S64x8x256 .bf16) (x2 : Vec F S64x9x256 .bf16) (x3 : Vec F S256x256 .f32) :
    sout0_A_0 c i arg3 harg3 arg4 harg4 arg5 harg5 arg6 harg6 arg7 harg7 arg8 harg8 hc0 hc1 x0 x1 x2 x3 = k0_pay2 x0 x1 x2 x3 (k0_pay1 (F := F)) := by
  -- the covering pieces read back as their canonical contents
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  -- the accumulate store is last and whole: its payload stands, and the scratch it read was the reset value
  rw [View.canon_cons_unit_zero (S := S64x9x256) hz, View.readCov_unit_zero (S := S64x9x256) _ hz]
  -- each whole-block load of an input reads that input's contents
  simp only [View.readAt_eq_ld, harg3.read_unread, harg4.read_unread, harg5.read_unread, harg6.read_unread, View.ld_unit_zero (S := S64x8x256) hz, View.ld_unit_zero (S := S64x9x256) hz, View.ld_unit_zero (S := S256x256) hz2]

/-- Middle key block: the scratch ends at the contribution added to the carried value. -/
theorem scratch_middle (c : Dev nD) (i : grid0.Coords) (arg3 : Memref sig .tc .vmem S64x8x256 .bf16) (harg3 : arg3.IsWhole) (arg4 : Memref sig .tc .vmem S64x8x256 .bf16) (harg4 : arg4.IsWhole) (arg5 : Memref sig .tc .vmem S64x9x256 .bf16) (harg5 : arg5.IsWhole) (arg6 : Memref sig .tc .vmem S256x256 .f32) (harg6 : arg6.IsWhole) (arg7 : Memref sig .tc .vmem S64x8x256 .f32) (harg7 : arg7.IsWhole) (arg8 : Memref sig .tc .vmem S64x9x256 .f32) (harg8 : arg8.IsWhole) (hc0 : ¬cond0_0 i) (hc1 : ¬cond0_1 i)
    (x0 : Vec F S64x8x256 .bf16) (x1 : Vec F S64x8x256 .bf16) (x2 : Vec F S64x9x256 .bf16) (x3 : Vec F S256x256 .f32) (xs0 : Vec F S64x9x256 .f32) :
    sout0_B_0 c i arg3 harg3 arg4 harg4 arg5 harg5 arg6 harg6 arg7 harg7 arg8 harg8 hc0 hc1 x0 x1 x2 x3 xs0 = k0_pay2 x0 x1 x2 x3 xs0 := by
  -- the one covering piece reads back as its payload
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  -- each whole-block load reads the contents: the inputs' blocks and the carried scratch
  simp only [View.readAt_eq_ld, harg3.read_unread, harg4.read_unread, harg5.read_unread, harg6.read_unread, harg8.read_unread, View.ld_unit_zero (S := S64x8x256) hz, View.ld_unit_zero (S := S64x9x256) hz, View.ld_unit_zero (S := S256x256) hz2]

/-- Last key block: the scratch ends at the contribution added to the carried value, -/
theorem scratch_last (c : Dev nD) (i : grid0.Coords) (arg3 : Memref sig .tc .vmem S64x8x256 .bf16) (harg3 : arg3.IsWhole) (arg4 : Memref sig .tc .vmem S64x8x256 .bf16) (harg4 : arg4.IsWhole) (arg5 : Memref sig .tc .vmem S64x9x256 .bf16) (harg5 : arg5.IsWhole) (arg6 : Memref sig .tc .vmem S256x256 .f32) (harg6 : arg6.IsWhole) (arg7 : Memref sig .tc .vmem S64x8x256 .f32) (harg7 : arg7.IsWhole) (arg8 : Memref sig .tc .vmem S64x9x256 .f32) (harg8 : arg8.IsWhole) (hc0 : ¬cond0_0 i) (hc1 : cond0_1 i)
    (x0 : Vec F S64x8x256 .bf16) (x1 : Vec F S64x8x256 .bf16) (x2 : Vec F S64x9x256 .bf16) (x3 : Vec F S256x256 .f32) (xs0 : Vec F S64x9x256 .f32) :
    sout0_C_0 c i arg3 harg3 arg4 harg4 arg5 harg5 arg6 harg6 arg7 harg7 arg8 harg8 hc0 hc1 x0 x1 x2 x3 xs0 = k0_pay2 x0 x1 x2 x3 xs0 := by
  -- the one covering piece reads back as its payload
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  -- each whole-block load reads the contents: the inputs' blocks and the carried scratch
  simp only [View.readAt_eq_ld, harg3.read_unread, harg4.read_unread, harg5.read_unread, harg6.read_unread, harg8.read_unread, View.ld_unit_zero (S := S64x8x256) hz, View.ld_unit_zero (S := S64x9x256) hz, View.ld_unit_zero (S := S256x256) hz2]

/-- and the output block at the finalisation of that. -/
theorem out_last (c : Dev nD) (i : grid0.Coords) (arg3 : Memref sig .tc .vmem S64x8x256 .bf16) (harg3 : arg3.IsWhole) (arg4 : Memref sig .tc .vmem S64x8x256 .bf16) (harg4 : arg4.IsWhole) (arg5 : Memref sig .tc .vmem S64x9x256 .bf16) (harg5 : arg5.IsWhole) (arg6 : Memref sig .tc .vmem S256x256 .f32) (harg6 : arg6.IsWhole) (arg7 : Memref sig .tc .vmem S64x8x256 .f32) (harg7 : arg7.IsWhole) (arg8 : Memref sig .tc .vmem S64x9x256 .f32) (harg8 : arg8.IsWhole) (hc0 : ¬cond0_0 i) (hc1 : cond0_1 i)
    (x0 : Vec F S64x8x256 .bf16) (x1 : Vec F S64x8x256 .bf16) (x2 : Vec F S64x9x256 .bf16) (x3 : Vec F S256x256 .f32) (xs0 : Vec F S64x9x256 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  -- the output's one covering piece reads back as its payload
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  -- that payload is the finalisation of the scratch read after the accumulate store, which reads the stored payload
  rw [View.canon_unit_zero (S := S64x8x256) hz, View.readCov_unit_zero (S := S64x9x256) _ hz]
  -- each whole-block load reads the contents: the inputs' blocks and the carried scratch
  simp only [View.readAt_eq_ld, harg3.read_unread, harg4.read_unread, harg5.read_unread, harg6.read_unread, harg8.read_unread, View.ld_unit_zero (S := S64x8x256) hz, View.ld_unit_zero (S := S64x9x256) hz, View.ld_unit_zero (S := S256x256) hz2]

end Cert.KernelIdeal.Pieces

end
-- ==== Proof.KBlocks.lean ====
/-
  The four input blocks a grid point reads, as entries of the arrays the region finds.

  The grid is 2 x 4 x 4 (batch half, query block, key block), row-major: point `t` has batch half `t / 16`,
  query block `t / 4 % 4` and key block `t % 4`.  The query window's block at `t` is rows `64 (t/16) ..` and
  columns `256 (t/4%4) ..` of the [128, 8, 1024] array; the key and value windows take columns `256 (t%4) ..`;
  the bias window takes rows `256 (t%4) ..` (keys) and columns `256 (t/4%4) ..` (queries) of the [1024, 1024] array.
-/
import proofs.«409010_j66297115181077_3_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The blocks of the four input windows at a point, at their literal types. -/
abbrev qblk (c : Dev nD) (t : Fin cfg0.N) : Vec F S64x8x256 .bf16 := iblk m c 0 t
abbrev kblk (c : Dev nD) (t : Fin cfg0.N) : Vec F S64x8x256 .bf16 := iblk m c 1 t
abbrev vblk (c : Dev nD) (t : Fin cfg0.N) : Vec F S64x9x256 .bf16 := iblk m c 2 t
abbrev bblk (c : Dev nD) (t : Fin cfg0.N) : Vec F S256x256 .f32 := iblk m c 3 t

/-- The four arrays as the region finds them, at their literal types. -/
abbrev qarr (c : Dev nD) : Vec F S128x8x1024 .bf16 := V m c main_v8
abbrev karr (c : Dev nD) : Vec F S128x8x1024 .bf16 := V m c main_v11
abbrev varr (c : Dev nD) : Vec F S128x9x1024 .bf16 := V m c main_v16
abbrev barr (c : Dev nD) : Vec F S1024x1024 .f32 := V m c main_v18

theorem N32 : cfg0.N = 32 := N_0

/-- Batch entry `d` of the point's batch half. -/
def bd (t : Fin cfg0.N) (d : Fin 64) : Fin 128 := ⟨64 * (t.val / 16) + d.val, by have := t.isLt; have := N32; omega⟩
/-- Query `q` of the point's query block. -/
def bq (t : Fin cfg0.N) (q : Fin 256) : Fin 1024 := ⟨256 * (t.val / 4 % 4) + q.val, by omega⟩
/-- Key `kk` of the point's key block. -/
def bk (t : Fin cfg0.N) (kk : Fin 256) : Fin 1024 := ⟨256 * (t.val % 4) + kk.val, by omega⟩

/-- The query window's block index at a point: (batch half, 0, query block). -/
theorem idxq : ∀ t : Fin cfg0.N,
    win0_0.index t 0 = t.val / 16 ∧ win0_0.index t 1 = 0 ∧ win0_0.index t 2 = t.val / 4 % 4 :=
  (by decide +kernel : ∀ t : Fin grid0.N, _)

/-- The key window's block index at a point: (batch half, 0, key block). -/
theorem idxk : ∀ t : Fin cfg0.N,
    win0_1.index t 0 = t.val / 16 ∧ win0_1.index t 1 = 0 ∧ win0_1.index t 2 = t.val % 4 :=
  (by decide +kernel : ∀ t : Fin grid0.N, _)

/-- The value window's block index at a point: (batch half, 0, key block). -/
theorem idxv : ∀ t : Fin cfg0.N,
    win0_2.index t 0 = t.val / 16 ∧ win0_2.index t 1 = 0 ∧ win0_2.index t 2 = t.val % 4 :=
  (by decide +kernel : ∀ t : Fin grid0.N, _)

/-- The bias window's block index at a point: (key block, query block). -/
theorem idxb : ∀ t : Fin cfg0.N,
    win0_3.index t 0 = t.val % 4 ∧ win0_3.index t 1 = t.val / 4 % 4 :=
  (by decide +kernel : ∀ t : Fin grid0.N, _)

theorem qblk_apply (c : Dev nD) (t : Fin cfg0.N) (d : Fin 64) (h : Fin 8) (q : Fin 256) :
    qblk m c t (ix3 d h q) = qarr m c (ix3 (bd t d) h (bq t q)) := by
  obtain ⟨e0, e1, e2⟩ := idxq t
  show ((cfg0.win 0).blk t).view.read (Elt F) (V m c main_v8) (ix3 d h q) = _
  rw [View.read_apply]
  show V m c main_v8 (((cfg0.win 0).blk t).view.emb (ix3 d h q)) = V m c main_v8 (ix3 (bd t d) h (bq t q))
  congr 1
  funext a
  apply Fin.ext
  match a with
  | ⟨0, _⟩ => show win0_0.index t 0 * 64 + 1 * d.val = 64 * (t.val / 16) + d.val; rw [e0]; omega
  | ⟨1, _⟩ => show win0_0.index t 1 * 8 + 1 * h.val = h.val; rw [e1]; omega
  | ⟨2, _⟩ => show win0_0.index t 2 * 256 + 1 * q.val = 256 * (t.val / 4 % 4) + q.val; rw [e2]; omega

theorem kblk_apply (c : Dev nD) (t : Fin cfg0.N) (d : Fin 64) (h : Fin 8) (kk : Fin 256) :
    kblk m c t (ix3 d h kk) = karr m c (ix3 (bd t d) h (bk t kk)) := by
  obtain ⟨e0, e1, e2⟩ := idxk t
  show ((cfg0.win 1).blk t).view.read (Elt F) (V m c main_v11) (ix3 d h kk) = _
  rw [View.read_apply]
  show V m c main_v11 (((cfg0.win 1).blk t).view.emb (ix3 d h kk)) = V m c main_v11 (ix3 (bd t d) h (bk t kk))
  congr 1
  funext a
  apply Fin.ext
  match a with
  | ⟨0, _⟩ => show win0_1.index t 0 * 64 + 1 * d.val = 64 * (t.val / 16) + d.val; rw [e0]; omega
  | ⟨1, _⟩ => show win0_1.index t 1 * 8 + 1 * h.val = h.val; rw [e1]; omega
  | ⟨2, _⟩ => show win0_1.index t 2 * 256 + 1 * kk.val = 256 * (t.val % 4) + kk.val; rw [e2]; omega

theorem vblk_apply (c : Dev nD) (t : Fin cfg0.N) (d : Fin 64) (r : Fin 9) (kk : Fin 256) :
    vblk m c t (ix3 d r kk) = varr m c (ix3 (bd t d) r (bk t kk)) := by
  obtain ⟨e0, e1, e2⟩ := idxv t
  show ((cfg0.win 2).blk t).view.read (Elt F) (V m c main_v16) (ix3 d r kk) = _
  rw [View.read_apply]
  show V m c main_v16 (((cfg0.win 2).blk t).view.emb (ix3 d r kk)) = V m c main_v16 (ix3 (bd t d) r (bk t kk))
  congr 1
  funext a
  apply Fin.ext
  match a with
  | ⟨0, _⟩ => show win0_2.index t 0 * 64 + 1 * d.val = 64 * (t.val / 16) + d.val; rw [e0]; omega
  | ⟨1, _⟩ => show win0_2.index t 1 * 9 + 1 * r.val = r.val; rw [e1]; omega
  | ⟨2, _⟩ => show win0_2.index t 2 * 256 + 1 * kk.val = 256 * (t.val % 4) + kk.val; rw [e2]; omega

theorem bblk_apply (c : Dev nD) (t : Fin cfg0.N) (kk : Fin 256) (q : Fin 256) :
    bblk m c t (ix2 kk q) = barr m c (ix2 (bk t kk) (bq t q)) := by
  obtain ⟨e0, e1⟩ := idxb t
  show ((cfg0.win 3).blk t).view.read (Elt F) (V m c main_v18) (ix2 kk q) = _
  rw [View.read_apply]
  show V m c main_v18 (((cfg0.win 3).blk t).view.emb (ix2 kk q)) = V m c main_v18 (ix2 (bk t kk) (bq t q))
  congr 1
  funext a
  apply Fin.ext
  match a with
  | ⟨0, _⟩ => show win0_3.index t 0 * 256 + 1 * kk.val = 256 * (t.val % 4) + kk.val; rw [e0]; omega
  | ⟨1, _⟩ => show win0_3.index t 1 * 256 + 1 * q.val = 256 * (t.val / 4 % 4) + q.val; rw [e1]; omega

end Cert.KernelIdeal.Blocks

end
-- ==== Proof.KAccum.lean ====
/-
  The carried accumulator, point by point.

  After grid point `n` the scratch holds the accumulation payload of that point's four blocks over zero when the
  point opens a key sweep (key block 0) and over what the point before left otherwise; at the last key block the
  output block is the finalisation payload of the scratch.  By induction over the points, from what each control
  case leaves.
-/
import proofs.«409010_j66297115181077_3_alg».proof.Proof.KPieces
import proofs.«409010_j66297115181077_3_alg».proof.Proof.KBlocks

noncomputable section

namespace Cert.KernelIdeal.Accum

open Idealize.ShloMosaic Idealize.ShloMosaic.TcCoe Idealize.SL.Sem
open Cert.KernelIdeal Cert.KernelIdeal.Gen Cert.KernelIdeal.Blocks Cert.KernelIdeal.Pieces

variable {F : FTy → Type} [FloatOps F]
variable (m : (ℓ : Loc nD τ sig) → Buf (Elt F) ℓ)

/-- The scratch after point `n`. -/
def scr (c : Dev nD) : (n : ℕ) → n < cfg0.N → Vec F S64x9x256 .f32
  | 0, h => k0_pay2 (qblk m c ⟨0, h⟩) (kblk m c ⟨0, h⟩) (vblk m c ⟨0, h⟩) (bblk m c ⟨0, h⟩) (k0_pay1 (F := F))
  | n + 1, h => k0_pay2 (qblk m c ⟨n + 1, h⟩) (kblk m c ⟨n + 1, h⟩) (vblk m c ⟨n + 1, h⟩) (bblk m c ⟨n + 1, h⟩)
      (if (n + 1) % 4 = 0 then k0_pay1 (F := F) else scr c n (Nat.lt_of_succ_lt h))

theorem scr_zero (c : Dev nD) (h : 0 < cfg0.N) :
    scr m c 0 h = k0_pay2 (qblk m c ⟨0, h⟩) (kblk m c ⟨0, h⟩) (vblk m c ⟨0, h⟩) (bblk m c ⟨0, h⟩) (k0_pay1 (F := F)) := rfl

theorem scr_succ (c : Dev nD) (n : ℕ) (h : n + 1 < cfg0.N) :
    scr m c (n + 1) h = k0_pay2 (qblk m c ⟨n + 1, h⟩) (kblk m c ⟨n + 1, h⟩) (vblk m c ⟨n + 1, h⟩) (bblk m c ⟨n + 1, h⟩)
      (if (n + 1) % 4 = 0 then k0_pay1 (F := F) else scr m c n (Nat.lt_of_succ_lt h)) := rfl

/-- What the frame's point-by-point contents say of the scratch is `scr`. -/
theorem scratch_eq (c : Dev nD) : ∀ (n : ℕ) (h : n < cfg0.N), (outsAt0 m c n h).2 = scr m c n h
  | 0, h => by
    rw [outsAt0_A m c ⟨0, h⟩ rfl (by show ¬ 0 % 4 = 3; decide)]
    dsimp only
    exact scratch_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    have ih := scratch_eq c n (Nat.lt_of_succ_lt h)
    rw [scr_succ]
    by_cases h0 : (n + 1) % 4 = 0
    · have h1 : ¬ (n + 1) % 4 = 3 := by omega
      rw [outsAt0_A m c ⟨n + 1, h⟩ h0 h1, if_pos h0]
      dsimp only
      exact scratch_first (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩)
    · rw [if_neg h0]
      by_cases h1 : (n + 1) % 4 = 3
      · rw [outsAt0_C m c ⟨n + 1, h⟩ h0 h1]
        dsimp only
        rw [scratch_last (F := F)]
        show k0_pay2 _ _ _ _ (outsAt0 m c n _).2 = _
        rw [ih]
      · rw [outsAt0_B m c ⟨n + 1, h⟩ h0 h1]
        dsimp only
        rw [scratch_middle (F := F)]
        show k0_pay2 _ _ _ _ (outsAt0 m c n _).2 = _
        rw [ih]

/-- At a last key block the output block is the finalisation of the scratch. -/
theorem out_eq (c : Dev nD) (t : Fin cfg0.N) (h3 : t.val % 4 = 3) :
    (outsAt0 m c t.val t.isLt).1 = k0_pay3 (scr m c t.val t.isLt) := by
  obtain ⟨n, hn⟩ := t
  cases n with
  | zero => exact absurd h3 (by show ¬ 0 % 4 = 3; decide)
  | succ n =>
    have h0 : ¬ (n + 1) % 4 = 0 := by dsimp only at h3; omega
    have h1 : (n + 1) % 4 = 3 := h3
    rw [outsAt0_C m c ⟨n + 1, hn⟩ h0 h1]
    dsimp only
    rw [out_last (F := F), scr_succ, if_neg h0]
    show k0_pay3 (k0_pay2 _ _ _ _ (outsAt0 m c n _).2) = _
    rw [scratch_eq m c n (Nat.lt_of_succ_lt hn)]

end Cert.KernelIdeal.Accum

end
-- ==== Proof.KPay.lean ====
/-
  The kernel body's three stored values, read at an index, over the extended reals.

  * the reset stores zero everywhere;
  * the accumulation stores, at batch entry `d`, value row `r` and query `q`, the scratch entry it found plus the sum
    over the block's 256 keys `kk` of `vaug[d, r, kk] * exp ((∑ h, k[d, h, kk] * q[d, h, q]) * scale + bias[kk, q])`
    (two matrix products into zero accumulators, a format change that is the identity here);
  * the finalisation stores, at head `h` (rows 0..7), the accumulator entry times the reciprocal of the accumulator's
    row 8 at the same batch entry and query.
-/
import proofs.«409010_j66297115181077_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Pay

open Cert.KernelIdeal Cert.KernelIdeal.Gen Idealize.ShloMosaic Idealize.ShloMosaic.ValueIdx

/-- The scale word both programs multiply the raw logits by. -/
abbrev scaleW : EReal := Ideal.ofBits .f32 0x3DB504F3#32

/-! ## The first product: keys against queries, contracted over the eight head coordinates -/

/-- The left operand's batch coordinate is the output's. -/
theorem lhs_qk_0 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.lhsIdx i c 0).val = (i 0).val := by
  unfold DotDims.lhsIdx
  rw [dif_pos (show (0 : Fin S64x8x256.rank) ∈ Cert.KernelIdeal.dot_S64x8x256_S64x8x256_S64x256x256_1_1_2_2_0_0.lhsBatch by decide)]
  rfl
/-- The left operand's head coordinate is the contraction position. -/
theorem lhs_qk_1 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.lhsIdx i c 1).val = (c ⟨0, by decide⟩).val :=
  Cert.KernelIdeal.dot_S64x8x256_S64x8x256_S64x256x256_1_1_2_2_0_0.lhsIdx_val_of_single rfl i c
/-- The left operand's key coordinate is the output's middle coordinate. -/
theorem lhs_qk_2 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.lhsIdx i c 2).val = (i 1).val := by
  unfold DotDims.lhsIdx
  rw [dif_neg (show ¬(2 : Fin S64x8x256.rank) ∈ Cert.KernelIdeal.dot_S64x8x256_S64x8x256_S64x256x256_1_1_2_2_0_0.lhsBatch by decide), dif_pos (show (2 : Fin S64x8x256.rank) ∈ Cert.KernelIdeal.dot_S64x8x256_S64x8x256_S64x256x256_1_1_2_2_0_0.lhsNonContracting by decide)]
  rfl
/-- The right operand's batch coordinate is the output's. -/
theorem rhs_qk_0 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.rhsIdx i c 0).val = (i 0).val := by
  unfold DotDims.rhsIdx
  rw [dif_pos (show (0 : Fin S64x8x256.rank) ∈ Cert.KernelIdeal.dot_S64x8x256_S64x8x256_S64x256x256_1_1_2_2_0_0.rhsBatch by decide)]
  rfl
/-- The right operand's head coordinate is the contraction position. -/
theorem rhs_qk_1 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.rhsIdx i c 1).val = (c ⟨0, by decide⟩).val :=
  Cert.KernelIdeal.dot_S64x8x256_S64x8x256_S64x256x256_1_1_2_2_0_0.rhsIdx_val_of_single rfl i c
/-- The right operand's query coordinate is the output's last coordinate. -/
theorem rhs_qk_2 (i : S64x256x256.Idx) (c : Cert.KernelIdeal.dot_S64x8x256_S64x8x256_S64x256x256_1_1_2_2_0_0.contr.Idx) :
    (Cert.KernelIdeal.dot_S64x8x256_S64x8x256_S64x256x256_1_1_2_2_0_0.rhsIdx i c 2).val = (i 2).val := by
  unfold DotDims.rhsIdx
  rw [dif_neg (show ¬(2 : Fin S64x8x256.rank) ∈ Cert.KernelIdeal.dot_S64x8x256_S64x8x256_S64x256x256_1_1_2_2_0_0.rhsBatch by decide), dif_pos (show (2 : Fin S64x8x256.rank) ∈ Cert.KernelIdeal.dot_S64x8x256_S64x8x256_S64x256x256_1_1_2_2_0_0.rhsNonContracting by decide)]
  rfl

/-- The product of the key block and the query block into a zero accumulator, at `(d, kk, q)`: the sum over the
    eight head coordinates of key times query. -/
theorem qk_apply (l r : FVec Ideal S64x8x256 .bf16) (d : Fin 64) (kk q : Fin 256) :
    matmul Cert.KernelIdeal.dot_S64x8x256_S64x8x256_S64x256x256_1_1_2_2_0_0 none l r (constant (F := Ideal) S64x256x256 .f32 0x00000000#32) (ix3 d kk q)
      = ∑ h : Fin 8, l (ix3 d h kk) * r (ix3 d h q) := by
  simp only [matmul]
  rw [Ideal.matmul_constant_zero_apply, ← Equiv.sum_comp (contrEquiv1 Cert.KernelIdeal.dot_S64x8x256_S64x8x256_S64x256x256_1_1_2_2_0_0 8 rfl rfl).symm]
  refine Finset.sum_congr rfl fun h _ => ?_
  have hk := contrEquiv1_symm_val Cert.KernelIdeal.dot_S64x8x256_S64x8x256_S64x256x256_1_1_2_2_0_0 8 rfl rfl h
  have el : Cert.KernelIdeal.dot_S64x8x256_S64x8x256_S64x256x256_1_1_2_2_0_0.lhsIdx (ix3 d kk q) ((contrEquiv1 Cert.KernelIdeal.dot_S64x8x256_S64x8x256_S64x256x256_1_1_2_2_0_0 8 rfl rfl).symm h) = ix3 d h kk := funext fun a => Fin.ext (by
    match a with
    | ⟨0, _⟩ => exact lhs_qk_0 _ _
    | ⟨1, _⟩ => exact (lhs_qk_1 _ _).trans hk
    | ⟨2, _⟩ => exact lhs_qk_2 _ _)
  have er : Cert.KernelIdeal.dot_S64x8x256_S64x8x256_S64x256x256_1_1_2_2_0_0.rhsIdx (ix3 d kk q) ((contrEquiv1 Cert.KernelIdeal.dot_S64x8x256_S64x8x256_S64x256x256_1_1_2_2_0_0 8 rfl rfl).symm h) = ix3 d h q := funext fun a => Fin.ext (by
    match a with
    | ⟨0, _⟩ => exact rhs_qk_0 _ _
    | ⟨1, _⟩ => exact (rhs_qk_1 _ _).trans hk
    | ⟨2, _⟩ => exact rhs_qk_2 _ _)
  rw [el, er]

/-! ## The second product: the augmented values against the weights, contracted over the 256 keys -/

/-- The left operand's batch coordinate is the output's. -/
theorem lhs_pv_0 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.lhsIdx i c 0).val = (i 0).val := by
  unfold DotDims.lhsIdx
  rw [dif_pos (show (0 : Fin S64x9x256.rank) ∈ Cert.KernelIdeal.dot_S64x9x256_S64x256x256_S64x9x256_2_1_1_2_0_0.lhsBatch by decide)]
  rfl
/-- The left operand's row coordinate is the output's. -/
theorem lhs_pv_1 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.lhsIdx i c 1).val = (i 1).val := by
  unfold DotDims.lhsIdx
  rw [dif_neg (show ¬(1 : Fin S64x9x256.rank) ∈ Cert.KernelIdeal.dot_S64x9x256_S64x256x256_S64x9x256_2_1_1_2_0_0.lhsBatch by decide), dif_pos (show (1 : Fin S64x9x256.rank) ∈ Cert.KernelIdeal.dot_S64x9x256_S64x256x256_S64x9x256_2_1_1_2_0_0.lhsNonContracting by decide)]
  rfl
/-- The left operand's key coordinate is the contraction position. -/
theorem lhs_pv_2 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.lhsIdx i c 2).val = (c ⟨0, by decide⟩).val :=
  Cert.KernelIdeal.dot_S64x9x256_S64x256x256_S64x9x256_2_1_1_2_0_0.lhsIdx_val_of_single rfl i c
/-- The right operand's batch coordinate is the output's. -/
theorem rhs_pv_0 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.rhsIdx i c 0).val = (i 0).val := by
  unfold DotDims.rhsIdx
  rw [dif_pos (show (0 : Fin S64x256x256.rank) ∈ Cert.KernelIdeal.dot_S64x9x256_S64x256x256_S64x9x256_2_1_1_2_0_0.rhsBatch by decide)]
  rfl
/-- The right operand's key coordinate is the contraction position. -/
theorem rhs_pv_1 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.rhsIdx i c 1).val = (c ⟨0, by decide⟩).val :=
  Cert.KernelIdeal.dot_S64x9x256_S64x256x256_S64x9x256_2_1_1_2_0_0.rhsIdx_val_of_single rfl i c
/-- The right operand's query coordinate is the output's last coordinate. -/
theorem rhs_pv_2 (i : S64x9x256.Idx) (c : Cert.KernelIdeal.dot_S64x9x256_S64x256x256_S64x9x256_2_1_1_2_0_0.contr.Idx) :
    (Cert.KernelIdeal.dot_S64x9x256_S64x256x256_S64x9x256_2_1_1_2_0_0.rhsIdx i c 2).val = (i 2).val := by
  unfold DotDims.rhsIdx
  rw [dif_neg (show ¬(2 : Fin S64x256x256.rank) ∈ Cert.KernelIdeal.dot_S64x9x256_S64x256x256_S64x9x256_2_1_1_2_0_0.rhsBatch by decide), dif_pos (show (2 : Fin S64x256x256.rank) ∈ Cert.KernelIdeal.dot_S64x9x256_S64x256x256_S64x9x256_2_1_1_2_0_0.rhsNonContracting by decide)]
  rfl

/-- The product of the augmented value block and a weight array into a zero accumulator, at `(d, r, q)`: the sum
    over the 256 keys of value times weight. -/
theorem pv_apply (l : FVec Ideal S64x9x256 .bf16) (w : FVec Ideal S64x256x256 .bf16) (d : Fin 64) (r : Fin 9) (q : Fin 256) :
    matmul Cert.KernelIdeal.dot_S64x9x256_S64x256x256_S64x9x256_2_1_1_2_0_0 none l w (constant (F := Ideal) S64x9x256 .f32 0x00000000#32) (ix3 d r q)
      = ∑ kk : Fin 256, l (ix3 d r kk) * w (ix3 d kk q) := by
  simp only [matmul]
  rw [Ideal.matmul_constant_zero_apply, ← Equiv.sum_comp (contrEquiv1 Cert.KernelIdeal.dot_S64x9x256_S64x256x256_S64x9x256_2_1_1_2_0_0 256 rfl rfl).symm]
  refine Finset.sum_congr rfl fun kk _ => ?_
  have hk := contrEquiv1_symm_val Cert.KernelIdeal.dot_S64x9x256_S64x256x256_S64x9x256_2_1_1_2_0_0 256 rfl rfl kk
  have el : Cert.KernelIdeal.dot_S64x9x256_S64x256x256_S64x9x256_2_1_1_2_0_0.lhsIdx (ix3 d r q) ((contrEquiv1 Cert.KernelIdeal.dot_S64x9x256_S64x256x256_S64x9x256_2_1_1_2_0_0 256 rfl rfl).symm kk) = ix3 d r kk := funext fun a => Fin.ext (by
    match a with
    | ⟨0, _⟩ => exact lhs_pv_0 _ _
    | ⟨1, _⟩ => exact lhs_pv_1 _ _
    | ⟨2, _⟩ => exact (lhs_pv_2 _ _).trans hk)
  have er : Cert.KernelIdeal.dot_S64x9x256_S64x256x256_S64x9x256_2_1_1_2_0_0.rhsIdx (ix3 d r q) ((contrEquiv1 Cert.KernelIdeal.dot_S64x9x256_S64x256x256_S64x9x256_2_1_1_2_0_0 256 rfl rfl).symm kk) = ix3 d kk q := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The two broadcasts along a unit axis -/

/-- A `[1, 256, 256]` array broadcast over 64 batch entries reads, at `(d, kk, q)`, its one slab at `(kk, q)`. -/
theorem bcast_batch {α : Type} (x : S1x256x256.Idx → α) (h : S1x256x256.Broadcasts S64x256x256) (d : Fin 64) (kk q : Fin 256) :
    broadcastTo S64x256x256 x h (ix3 d kk q) = x (ix3 (0 : Fin 1) kk q) := by
  refine broadcastTo_apply x h (ix3 d kk q) (ix3 (0 : Fin 1) kk q) fun ax => ?_
  match ax with
  | ⟨0, _⟩ => rfl
  | ⟨1, _⟩ => rfl
  | ⟨2, _⟩ => rfl

/-- A `[64, 1, 256]` array broadcast over 8 rows reads, at `(d, h, q)`, its one row at `(d, q)`. -/
theorem bcast_row {α : Type} (x : S64x1x256.Idx → α) (h : S64x1x256.Broadcasts S64x8x256) (d : Fin 64) (hh : Fin 8) (q : Fin 256) :
    broadcastTo S64x8x256 x h (ix3 d hh q) = x (ix3 d (0 : Fin 1) q) := by
  refine broadcastTo_apply x h (ix3 d hh q) (ix3 d (0 : Fin 1) q) fun ax => ?_
  match ax with
  | ⟨0, _⟩ => rfl
  | ⟨1, _⟩ => rfl
  | ⟨2, _⟩ => rfl

/-! ## The three payloads -/

/-- The reset value is zero at every index. -/
theorem pay1_apply (j : S64x9x256.Idx) : k0_pay1 (F := Ideal) j = 0 := by
  simp only [k0_pay1, shapeCast_self]
  exact Ideal.ofBits_zero_f32

/-- The accumulated value at `(d, r, q)`. -/
theorem pay2_apply (x0 x1 : Vec Ideal S64x8x256 .bf16) (x2 : Vec Ideal S64x9x256 .bf16) (x3 : Vec Ideal S256x256 .f32)
    (acc : Vec Ideal S64x9x256 .f32) (d : Fin 64) (r : Fin 9) (q : Fin 256) :
    k0_pay2 (F := Ideal) x0 x1 x2 x3 acc (ix3 d r q)
      = acc (ix3 d r q) + ∑ kk : Fin 256, x2 (ix3 d r kk)
          * Ideal.exp ((∑ h : Fin 8, x1 (ix3 d h kk) * x0 (ix3 d h q)) * scaleW + x3 (ix2 kk q)) := by
  simp only [k0_pay2, shapeCast_self]
  refine (addf_apply _ _ _).trans ?_
  refine congrArg (acc (ix3 d r q) + ·) ?_
  refine (pv_apply _ _ d r q).trans ?_
  refine Finset.sum_congr rfl fun kk _ => ?_
  refine congrArg (x2 (ix3 d r kk) * ·) ?_
  refine (truncf_apply (ψ := .bf16) _ bitsLt_bf16_f32 (ix3 d kk q)).trans ?_
  show Ideal.exp _ = _
  refine congrArg Ideal.exp ?_
  refine (addf_apply _ _ _).trans ?_
  refine congrArg₂ (· + ·) ?_ ?_
  · refine (mulf_apply _ _ _).trans ?_
    refine congrArg₂ (· * ·) (qk_apply _ _ d kk q) rfl
  · refine (bcast_batch _ _ d kk q).trans ?_
    exact shapeCast_ab_1ab_apply _ _ (0 : Fin 1) kk q

/-- The finalised value at `(d, h, q)`: numerator row `h` times the reciprocal of the denominator row 8. -/
theorem pay3_apply (v : Vec Ideal S64x9x256 .f32) (d : Fin 64) (h : Fin 8) (q : Fin 256) :
    k0_pay3 (F := Ideal) v (ix3 d h q)
      = v (ix3 d (Fin.castSucc h) q) * Ideal.div 1 (v (ix3 d (Fin.last 8) q)) := by
  simp only [k0_pay3]
  refine (mulf_apply _ _ _).trans ?_
  refine congrArg₂ (· * ·) ?_ ?_
  · exact slice3_axis1_apply 0 v _ d h q (Fin.castSucc h) (by simp)
  · refine (bcast_row _ _ d h q).trans ?_
    refine (divf_apply _ _ _).trans ?_
    refine congrArg₂ Ideal.div ?_ ?_
    · exact Ideal.ofBits_one_f32
    · exact slice3_axis1_apply 8 v _ d (0 : Fin 1) q (Fin.last 8) (by simp)

end Cert.KernelIdeal.Pay

end
-- ==== Proof.KHost.lean ====
/-
  The arrays the kernel's region finds, as entries of the program's arguments (over the extended reals).

  Before the region the program forms, for each of the three weight matrices `w`, the projection `x · wᵀ`
  ([1024, 1024]) re-read row-major as [128, 1024, 8] — `proj x w` below — and hands the region its transpose
  [128, 8, 1024] (the change of float format is the identity here).  The value array gets a ninth row of ones.
  The two bias matrices are added and transposed: entry (key, query) is `b1[query, key] + b2[query, key]`.
-/
import proofs.«409010_j66297115181077_3_alg».proof.Proof.KBlocks
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

namespace Cert.KernelIdeal.HostIn

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- The projection `x · wᵀ` re-read row-major as [128, 1024, 8]. -/
def proj (x w : FVec Ideal S1024x128 .f32) : FVec Ideal S128x1024x8 .f32 :=
  shapeCast S128x1024x8 (Host.dotGeneral dot_S1024x128_S128x1024_S1024x1024_1_0_0_1_n_n none x
    (transpose S128x1024 [1, 0] w transposes_S1024x128_S128x1024_1_0)) shapeCasts_S1024x1024_S128x1024x8

/-- The seven arguments on core `c`, at their literal types. -/
abbrev ax (c : Dev nD) : FVec Ideal S1024x128 .f32 := m ((c : Thread nD τ).loc main_arg0)
abbrev ab1 (c : Dev nD) : FVec Ideal S1024x1024 .f32 := m ((c : Thread nD τ).loc main_arg1)
abbrev ab2 (c : Dev nD) : FVec Ideal S1024x1024 .f32 := m ((c : Thread nD τ).loc main_arg2)
abbrev awq (c : Dev nD) : FVec Ideal S1024x128 .f32 := m ((c : Thread nD τ).loc main_arg3)
abbrev awk (c : Dev nD) : FVec Ideal S1024x128 .f32 := m ((c : Thread nD τ).loc main_arg4)
abbrev awv (c : Dev nD) : FVec Ideal S1024x128 .f32 := m ((c : Thread nD τ).loc main_arg5)
abbrev awo (c : Dev nD) : FVec Ideal S128x1024 .f32 := m ((c : Thread nD τ).loc main_arg6)

/-! ## The four arrays as terms over the arguments -/

/-- The query array is the query projection with its last two axes swapped. -/
theorem qarr_eq (c : Dev nD) : (qarr m c : S128x8x1024.Idx → EReal)
    = truncf .bf16 (transpose S128x8x1024 [0, 2, 1] (proj (ax m c) (awq m c))
        transposes_S128x1024x8_S128x8x1024_0_2_1) bitsLt_bf16_f32 := by
  show StableHlo.after hostOps0 (fun b => m (c, b)) (Proc.devRef .tc main_v8) = _
  after_results
  rfl

/-- The key array is the key projection with its last two axes swapped. -/
theorem karr_eq (c : Dev nD) : (karr m c : S128x8x1024.Idx → EReal)
    = truncf .bf16 (transpose S128x8x1024 [0, 2, 1] (proj (ax m c) (awk m c))
        transposes_S128x1024x8_S128x8x1024_0_2_1) bitsLt_bf16_f32 := by
  show StableHlo.after hostOps0 (fun b => m (c, b)) (Proc.devRef .tc main_v11) = _
  after_results
  rfl

/-- The value array is the value projection with its last two axes swapped, and one row of the constant
    1.0 (sixteen-bit pattern 3F80) appended along the middle axis. -/
theorem varr_eq (c : Dev nD) : (varr m c : S128x9x1024.Idx → EReal)
    = concatenate S128x9x1024 1
        [⟨S128x8x1024, truncf .bf16 (transpose S128x8x1024 [0, 2, 1] (proj (ax m c) (awv m c))
            transposes_S128x1024x8_S128x8x1024_0_2_1) bitsLt_bf16_f32⟩,
         ⟨S128x1x1024, broadcastInDim S128x1x1024 ![] bcast_S_S128x1x1024 (constant (F := Ideal) S_ .bf16 0x3F80#16)⟩]
        concatenates_S128x8x1024_S128x1x1024_S128x9x1024_d1 := by
  show StableHlo.after hostOps0 (fun b => m (c, b)) (Proc.devRef .tc main_v16) = _
  after_results
  rfl

/-- The bias array is the sum of the two bias matrices, transposed. -/
theorem barr_eq (c : Dev nD) : (barr m c : S1024x1024.Idx → EReal)
    = transpose S1024x1024 [1, 0] (addf (ab1 m c) (ab2 m c)) transposes_S1024x1024_S1024x1024_1_0 := by
  show StableHlo.after hostOps0 (fun b => m (c, b)) (Proc.devRef .tc main_v18) = _
  after_results

/-! ## The terms read at an index, over variables of the literal types -/

/-- A [128, 1024, 8] array with its last two axes swapped, in the narrower format, at (d, h, n). -/
private theorem swap_apply (P : FVec Ideal S128x1024x8 .f32) (d : Fin 128) (h : Fin 8) (n : Fin 1024) :
    (truncf .bf16 (transpose S128x8x1024 [0, 2, 1] P transposes_S128x1024x8_S128x8x1024_0_2_1) bitsLt_bf16_f32
      : FVec Ideal S128x8x1024 .bf16) (ix3 d h n) = P (ix3 d n h) := by
  rw [truncf_apply]
  exact transpose_ix3_021_apply P transposes_S128x1024x8_S128x8x1024_0_2_1 d h n

/-- The concatenation along the middle axis, at a row of the first piece. -/
private theorem cat_head_apply (A : FVec Ideal S128x8x1024 .bf16) (B : FVec Ideal S128x1x1024 .bf16)
    (d : Fin 128) (h : Fin 8) (n : Fin 1024) :
    concatenate S128x9x1024 1 [⟨S128x8x1024, A⟩, ⟨S128x1x1024, B⟩]
        concatenates_S128x8x1024_S128x1x1024_S128x9x1024_d1 (ix3 d (Fin.castSucc h) n) = A (ix3 d h n) :=
  concatenate_pair_apply_left (t := S128x9x1024) (s₁ := S128x8x1024) (s₂ := S128x1x1024) (1 : Fin 3) A B
    concatenates_S128x8x1024_S128x1x1024_S128x9x1024_d1 (ix3 d (Fin.castSucc h) n) rfl (ix3 d h n)
    (fun b => match b with | ⟨0, _⟩ => rfl | ⟨1, _⟩ => rfl | ⟨2, _⟩ => rfl)

/-- The concatenation along the middle axis, at its last row: the second piece's only row. -/
private theorem cat_last_apply (A : FVec Ideal S128x8x1024 .bf16) (B : FVec Ideal S128x1x1024 .bf16)
    (d : Fin 128) (n : Fin 1024) :
    concatenate S128x9x1024 1 [⟨S128x8x1024, A⟩, ⟨S128x1x1024, B⟩]
        concatenates_S128x8x1024_S128x1x1024_S128x9x1024_d1 (ix3 d (Fin.last 8) n) = B (ix3 d 0 n) :=
  concatenate_pair_apply_right (t := S128x9x1024) (s₁ := S128x8x1024) (s₂ := S128x1x1024) (1 : Fin 3) A B
    concatenates_S128x8x1024_S128x1x1024_S128x9x1024_d1 (ix3 d (Fin.last 8) n) rfl rfl (ix3 d 0 n)
    (fun b hb => match b, hb with
      | ⟨0, _⟩, _ => rfl
      | ⟨1, _⟩, hb => absurd rfl hb
      | ⟨2, _⟩, _ => rfl)
    rfl

/-- The scalar 1.0 broadcast to a shape is one everywhere. -/
private theorem ones_apply (j : S128x1x1024.Idx) :
    broadcastInDim S128x1x1024 ![] bcast_S_S128x1x1024 (constant (F := Ideal) S_ .bf16 0x3F80#16) j = 1 := by
  rw [broadcastInDim_scalar_apply, constant_apply, Ideal.ofBits_one_bf16]

/-! ## The arrays' entries -/

theorem qarr_apply (c : Dev nD) (d : Fin 128) (h : Fin 8) (n : Fin 1024) :
    qarr m c (ix3 d h n) = proj (ax m c) (awq m c) (ix3 d n h) := by
  rw [qarr_eq m c]
  exact swap_apply _ d h n

theorem karr_apply (c : Dev nD) (d : Fin 128) (h : Fin 8) (n : Fin 1024) :
    karr m c (ix3 d h n) = proj (ax m c) (awk m c) (ix3 d n h) := by
  rw [karr_eq m c]
  exact swap_apply _ d h n

/-- Rows 0..7 of the value array are the value projection's heads; row 8 is all ones. -/
theorem varr_apply_head (c : Dev nD) (d : Fin 128) (h : Fin 8) (n : Fin 1024) :
    varr m c (ix3 d (Fin.castSucc h) n) = proj (ax m c) (awv m c) (ix3 d n h) := by
  rw [varr_eq m c, cat_head_apply]
  exact swap_apply _ d h n

theorem varr_apply_ones (c : Dev nD) (d : Fin 128) (n : Fin 1024) :
    varr m c (ix3 d (Fin.last 8) n) = 1 := by
  rw [varr_eq m c, cat_last_apply]
  exact ones_apply _

theorem barr_apply (c : Dev nD) (k q : Fin 1024) :
    barr m c (ix2 k q) = ab1 m c (ix2 q k) + ab2 m c (ix2 q k) := by
  rw [barr_eq m c]
  rw [show transpose S1024x1024 [1, 0] (addf (ab1 m c) (ab2 m c)) transposes_S1024x1024_S1024x1024_1_0 (ix2 k q)
        = addf (ab1 m c) (ab2 m c) (ix2 q k) from
      transpose_ix2_apply (addf (ab1 m c) (ab2 m c)) transposes_S1024x1024_S1024x1024_1_0 k q]
  rfl

end Cert.KernelIdeal.HostIn

end
-- ==== Proof.AttnSpec.lean ====
/-
  The attention row, as mathematics over the extended reals.

  For one batch entry and one query the reference forms the logits `a m` over the 1024 keys, subtracts their
  maximum, exponentiates, divides by the sum, and takes the weighted sum of the values `v m`:
      ∑ m, (exp (a m - M) / (0 + ∑ m', exp (a m' - M))) * v m.
  The kernel exponentiates the logits as they are, accumulates numerator and denominator over four blocks of 256
  keys (the denominator as the numerator's sum against an all-ones value row), and multiplies the numerator by the
  reciprocal of the denominator:
      (∑ m, v m * exp (a m)) * (1 / ∑ m, 1 * exp (a m)).
  For real logits and values the two agree: `exp (a - M) = exp a * exp (-M)` with `exp (-M)` a positive real that
  cancels between numerator and denominator.  At an infinite logit they differ, so the law is stated for reals.
-/
import Idealize.ShloMosaic.PureOps.Ideal
import Mathlib.Analysis.SpecialFunctions.Exp
import Mathlib.Algebra.BigOperators.Fin
import Mathlib.Data.Finset.Fold
import Mathlib.Data.Fintype.BigOperators
import Mathlib.Algebra.Order.BigOperators.Group.Finset
import Mathlib.Algebra.BigOperators.Ring.Finset
import Mathlib.Tactic.FieldSimp
import Mathlib.Tactic.Ring

noncomputable section

namespace Cert.Attn

open Idealize.ShloMosaic

/-- Key `mm` of key block `j` (blocks of 256 keys). -/
def keyOf (j : Fin 4) (mm : Fin 256) : Fin 1024 := ⟨256 * j.val + mm.val, by omega⟩

/-- The reference's row maximum: the maximum with `-∞` of the fold of `max` from `-∞` over the keys. -/
def rowMax (a : Fin 1024 → EReal) : EReal := max ⊥ ((Finset.univ : Finset (Fin 1024)).fold max ⊥ a)

/-- The reference's row: softmax weights times values, summed over the keys. -/
def refRow (a v : Fin 1024 → EReal) : EReal :=
  ∑ m : Fin 1024, Ideal.div (Ideal.exp (a m - rowMax a)) (0 + ∑ m' : Fin 1024, Ideal.exp (a m' - rowMax a)) * v m

/-- One key block's contribution to the kernel's accumulator for a value row `w`. -/
def kerPart (a w : Fin 1024 → EReal) (j : Fin 4) : EReal :=
  ∑ mm : Fin 256, w (keyOf j mm) * Ideal.exp (a (keyOf j mm))

/-- The kernel's accumulator after the four key blocks, from a zero start, in block order. -/
def kerAcc (a w : Fin 1024 → EReal) : EReal :=
  0 + kerPart a w 0 + kerPart a w 1 + kerPart a w 2 + kerPart a w 3

/-- The kernel's row: the accumulated numerator times the reciprocal of the accumulated denominator. -/
def kerRow (a v : Fin 1024 → EReal) : EReal :=
  kerAcc a v * Ideal.div 1 (kerAcc a (fun _ => 1))

/-- A key is the pair of its block `m / 256` and its place `m % 256` in the block. -/
private def keyEquiv : Fin 4 × Fin 256 ≃ Fin 1024 where
  toFun p := keyOf p.1 p.2
  invFun m := (⟨m.val / 256, by omega⟩, ⟨m.val % 256, by omega⟩)
  left_inv p := by
    rcases p with ⟨j, mm⟩
    refine Prod.ext (Fin.ext ?_) (Fin.ext ?_)
    · show (256 * j.val + mm.val) / 256 = j.val
      omega
    · show (256 * j.val + mm.val) % 256 = mm.val
      omega
  right_inv m := by
    refine Fin.ext ?_
    show 256 * (m.val / 256) + m.val % 256 = m.val
    omega

/-- A finite sum of coerced reals is the coercion of the real sum. -/
private theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert i s hi ih => rw [Finset.sum_insert hi, Finset.sum_insert hi, ih, EReal.coe_add]

/-- A fold of `max` from `-∞` is `-∞` or one of the folded entries. -/
private theorem fold_max_bot_or_mem {ι : Type} (s : Finset ι) (g : ι → EReal) :
    s.fold max ⊥ g = ⊥ ∨ ∃ i ∈ s, s.fold max ⊥ g = g i := by
  classical
  induction s using Finset.induction_on with
  | empty => exact Or.inl Finset.fold_empty
  | insert i s hi ih =>
    rw [Finset.fold_insert hi]
    rcases max_choice (g i) (s.fold max ⊥ g) with h | h
    · exact Or.inr ⟨i, Finset.mem_insert_self i s, h⟩
    · rcases ih with h0 | ⟨k, hk, hk'⟩
      · exact Or.inl (h.trans h0)
      · exact Or.inr ⟨k, Finset.mem_insert_of_mem hk, h.trans hk'⟩

/-- The four key blocks exhaust the keys: the accumulator is the sum over all keys. -/
theorem kerAcc_eq_sum (a w : Fin 1024 → EReal) : kerAcc a w = ∑ m : Fin 1024, w m * Ideal.exp (a m) := by
  have h : (∑ m : Fin 1024, w m * Ideal.exp (a m))
      = ∑ j : Fin 4, ∑ mm : Fin 256, w (keyOf j mm) * Ideal.exp (a (keyOf j mm)) := by
    rw [← Equiv.sum_comp keyEquiv (fun m => w m * Ideal.exp (a m)), Fintype.sum_prod_type]
    rfl
  rw [h, Fin.sum_univ_four, kerAcc, zero_add]
  rfl

/-- The reference's maximum of real logits is a real. -/
theorem rowMax_real (a : Fin 1024 → ℝ) : ∃ M : ℝ, rowMax (fun m => (a m : EReal)) = (M : EReal) := by
  rcases fold_max_bot_or_mem (Finset.univ : Finset (Fin 1024)) (fun m => (a m : EReal)) with h | ⟨i, _, h⟩
  · exfalso
    have hle : ((a 0 : ℝ) : EReal) ≤ (Finset.univ : Finset (Fin 1024)).fold max ⊥ (fun m => (a m : EReal)) :=
      (Finset.le_fold_max _).mpr (Or.inr ⟨0, Finset.mem_univ 0, le_refl _⟩)
    rw [h] at hle
    exact absurd (lt_of_lt_of_le (EReal.bot_lt_coe (a 0)) hle) (lt_irrefl _)
  · exact ⟨a i, by rw [rowMax, h]; exact max_eq_right bot_le⟩

/-- THE LAW: for real logits and real values the kernel's row is the reference's. -/
theorem kerRow_eq_refRow (a v : Fin 1024 → ℝ) :
    kerRow (fun m => (a m : EReal)) (fun m => (v m : EReal)) = refRow (fun m => (a m : EReal)) (fun m => (v m : EReal)) := by
  obtain ⟨M, hM⟩ := rowMax_real a
  -- the two denominators are sums of positive reals
  have hD : (0 : ℝ) < ∑ m : Fin 1024, Real.exp (a m) :=
    Finset.sum_pos (fun m _ => Real.exp_pos _) Finset.univ_nonempty
  have hD' : (0 : ℝ) < ∑ m : Fin 1024, Real.exp (a m - M) :=
    Finset.sum_pos (fun m _ => Real.exp_pos _) Finset.univ_nonempty
  -- the kernel's row is the coercion of a real
  have hker : kerRow (fun m => (a m : EReal)) (fun m => (v m : EReal))
      = (((∑ m : Fin 1024, v m * Real.exp (a m)) * (1 / ∑ m : Fin 1024, Real.exp (a m)) : ℝ) : EReal) := by
    rw [kerRow, kerAcc_eq_sum, kerAcc_eq_sum]
    simp only [Ideal.exp_coe, one_mul, ← EReal.coe_mul, coe_sum]
    rw [Ideal.div_coe hD.ne', one_mul, ← EReal.coe_mul]
  -- so is the reference's
  have href : refRow (fun m => (a m : EReal)) (fun m => (v m : EReal))
      = ((∑ m : Fin 1024, Real.exp (a m - M) * (1 / ∑ m' : Fin 1024, Real.exp (a m' - M)) * v m : ℝ) : EReal) := by
    rw [refRow, hM]
    simp only [← EReal.coe_sub, Ideal.exp_coe, zero_add, coe_sum]
    simp only [Ideal.div_coe hD'.ne', ← EReal.coe_mul, coe_sum]
  rw [hker, href]
  refine congrArg Real.toEReal ?_
  -- the identity in ℝ: exp (a - M) = exp a * exp (-M), and exp (-M) cancels
  have hE : ∀ m, Real.exp (a m - M) = Real.exp (a m) * Real.exp (-M) := fun m => by
    rw [sub_eq_add_neg, Real.exp_add]
  have hS : (∑ m : Fin 1024, Real.exp (a m - M)) = (∑ m : Fin 1024, Real.exp (a m)) * Real.exp (-M) := by
    rw [Finset.sum_mul]
    exact Finset.sum_congr rfl (fun m _ => hE m)
  have hc : Real.exp (-M) ≠ 0 := (Real.exp_pos _).ne'
  have hDne : (∑ m : Fin 1024, Real.exp (a m)) ≠ 0 := hD.ne'
  rw [hS, Finset.sum_mul]
  refine Finset.sum_congr rfl (fun m _ => ?_)
  rw [hE m]
  field_simp

/-- The kernel's grouping of one logit is the reference's: products commute and addition of extended reals is
    associative. -/
theorem logit_regroup (c b1 b2 : EReal) (q k : Fin 8 → EReal) :
    (∑ h : Fin 8, k h * q h) * c + (b1 + b2) = (∑ h : Fin 8, q h * k h) * c + b1 + b2 := by
  have hs : (∑ h : Fin 8, k h * q h) = ∑ h : Fin 8, q h * k h :=
    Finset.sum_congr rfl (fun h _ => mul_comm _ _)
  rw [hs, add_assoc]

/-- A finite sum of products of reals is a real. -/
theorem sum_mul_real {n : ℕ} (x y : Fin n → EReal) (hx : ∀ i, ∃ r : ℝ, x i = (r : EReal)) (hy : ∀ i, ∃ r : ℝ, y i = (r : EReal)) :
    ∃ r : ℝ, (∑ i : Fin n, x i * y i) = (r : EReal) := by
  choose rx hrx using hx
  choose ry hry using hy
  refine ⟨∑ i : Fin n, rx i * ry i, ?_⟩
  rw [← coe_sum]
  exact Finset.sum_congr rfl (fun i _ => by rw [hrx i, hry i, EReal.coe_mul])

/-- A logit built from real entries and a real scale is a real. -/
theorem logit_real (c b1 b2 : EReal) (q k : Fin 8 → EReal) (hc : ∃ r : ℝ, c = (r : EReal)) (h1 : ∃ r : ℝ, b1 = (r : EReal))
    (h2 : ∃ r : ℝ, b2 = (r : EReal)) (hq : ∀ i, ∃ r : ℝ, q i = (r : EReal)) (hk : ∀ i, ∃ r : ℝ, k i = (r : EReal)) :
    ∃ r : ℝ, (∑ h : Fin 8, q h * k h) * c + b1 + b2 = (r : EReal) := by
  obtain ⟨rc, hrc⟩ := hc
  obtain ⟨r1, hr1⟩ := h1
  obtain ⟨r2, hr2⟩ := h2
  obtain ⟨rs, hrs⟩ := sum_mul_real q k hq hk
  exact ⟨rs * rc + r1 + r2, by rw [hrs, hrc, hr1, hr2, EReal.coe_add, EReal.coe_add, EReal.coe_mul]⟩

end Cert.Attn

end
-- ==== Proof.KClosed.lean ====
/-
  The accumulator in closed form.

  A key sweep is four consecutive grid points sharing batch half and query block, with key blocks 0, 1, 2, 3.  At its
  last point the scratch entry at batch entry `d`, value row `r`, query `q` is zero plus the four blocks'
  contributions in order — the accumulator `kerAcc` of the logit row and the value row — and the output block's
  entry at head `h` is the numerator row `h` times the reciprocal of row 8, the all-ones row's accumulator: `kerRow`.
-/
import proofs.«409010_j66297115181077_3_alg».proof.Proof.KAccum
import proofs.«409010_j66297115181077_3_alg».proof.Proof.KPay
import proofs.«409010_j66297115181077_3_alg».proof.Proof.KHost
import proofs.«409010_j66297115181077_3_alg».proof.Proof.AttnSpec

noncomputable section

namespace Cert.KernelIdeal.Closed

open Idealize.ShloMosaic Idealize.ShloMosaic.TcCoe Idealize.SL.Sem Idealize.ShloMosaic.ValueIdx
open Cert.KernelIdeal Cert.KernelIdeal.Gen Cert.KernelIdeal.Blocks Cert.KernelIdeal.HostIn Cert.KernelIdeal.Accum Cert.KernelIdeal.Pay

variable (m : (ℓ : Loc nD τ sig) → Buf (Elt Ideal) ℓ)

/-- The kernel's logit row at batch entry `D` and query `n`, over the keys: the raw logit of the key and query
    arrays times the scale, plus the transposed summed bias at (key, query). -/
def logitK (c : Dev nD) (D : Fin 128) (n : Fin 1024) : Fin 1024 → EReal := fun mk =>
  (∑ h : Fin 8, karr m c (ix3 D h mk) * qarr m c (ix3 D h n)) * scaleW + barr m c (ix2 mk n)

/-- One point's accumulation, read through the block reads: the accumulator it found plus the sum over the point's
    256 keys of the value entry times the exponential of the logit. -/
private theorem level (c : Dev nD) (p : ℕ) (hp : p < cfg0.N) (A : Vec Ideal S64x9x256 .f32) (d : Fin 64) (r : Fin 9) (q : Fin 256) :
    k0_pay2 (F := Ideal) (qblk m c ⟨p, hp⟩) (kblk m c ⟨p, hp⟩) (vblk m c ⟨p, hp⟩) (bblk m c ⟨p, hp⟩) A (ix3 d r q)
      = A (ix3 d r q) + ∑ kk : Fin 256, varr m c (ix3 (bd ⟨p, hp⟩ d) r (bk ⟨p, hp⟩ kk))
          * Ideal.exp (logitK m c (bd ⟨p, hp⟩ d) (bq ⟨p, hp⟩ q) (bk ⟨p, hp⟩ kk)) := by
  rw [pay2_apply]
  refine congrArg (A (ix3 d r q) + ·) (Finset.sum_congr rfl fun kk _ => ?_)
  rw [vblk_apply, bblk_apply]
  refine congrArg (varr m c (ix3 (bd ⟨p, hp⟩ d) r (bk ⟨p, hp⟩ kk)) * Ideal.exp ·) ?_
  refine congrArg (· * scaleW + barr m c (ix2 (bk ⟨p, hp⟩ kk) (bq ⟨p, hp⟩ q))) (Finset.sum_congr rfl fun h _ => ?_)
  rw [kblk_apply, qblk_apply]

/-- A point of the sweep that ends at `t`, with key block `j`, contributes block `j`'s part of `t`'s accumulator:
    it shares `t`'s batch half and query block, and its keys are block `j`'s. -/
private theorem part_eq (c : Dev nD) (t : Fin cfg0.N) (p : ℕ) (hp : p < cfg0.N) (j : Fin 4) (hj : p % 4 = j.val)
    (hpt : p / 4 = t.val / 4) (d : Fin 64) (r : Fin 9) (q : Fin 256) :
    (∑ kk : Fin 256, varr m c (ix3 (bd ⟨p, hp⟩ d) r (bk ⟨p, hp⟩ kk))
          * Ideal.exp (logitK m c (bd ⟨p, hp⟩ d) (bq ⟨p, hp⟩ q) (bk ⟨p, hp⟩ kk)))
      = Cert.Attn.kerPart (logitK m c (bd t d) (bq t q)) (fun mk => varr m c (ix3 (bd t d) r mk)) j := by
  have e1 : bd ⟨p, hp⟩ d = bd t d := Fin.ext (by simp only [bd]; omega)
  have e2 : bq ⟨p, hp⟩ q = bq t q := Fin.ext (by simp only [bq]; omega)
  have e3 : ∀ kk : Fin 256, bk ⟨p, hp⟩ kk = Cert.Attn.keyOf j kk := fun kk => Fin.ext (by simp only [bk, Cert.Attn.keyOf]; omega)
  unfold Cert.Attn.kerPart
  rw [e1, e2]
  exact Finset.sum_congr rfl fun kk _ => by rw [e3 kk]

/-- At the first point of a sweep the accumulation starts from the reset value. -/
private theorem scr_open (c : Dev nD) (n : ℕ) (h : n < cfg0.N) (h0 : n % 4 = 0) :
    scr m c n h = k0_pay2 (qblk m c ⟨n, h⟩) (kblk m c ⟨n, h⟩) (vblk m c ⟨n, h⟩) (bblk m c ⟨n, h⟩) (k0_pay1 (F := Ideal)) := by
  cases n with
  | zero => exact scr_zero m c h
  | succ k => rw [scr_succ, if_pos h0]

/-- At a later point of a sweep it continues from the previous point's scratch. -/
private theorem scr_step (c : Dev nD) (n : ℕ) (h : n + 1 < cfg0.N) (h0 : ¬ (n + 1) % 4 = 0) :
    scr m c (n + 1) h = k0_pay2 (qblk m c ⟨n + 1, h⟩) (kblk m c ⟨n + 1, h⟩) (vblk m c ⟨n + 1, h⟩) (bblk m c ⟨n + 1, h⟩)
      (scr m c n (Nat.lt_of_succ_lt h)) := by
  rw [scr_succ, if_neg h0]

/-- The sweep that starts at `n` (a multiple of four) and ends at `n + 3`: zero plus the four key blocks' parts. -/
private theorem scr_sweep (c : Dev nD) (n : ℕ) (h3 : n + 3 < cfg0.N) (h0 : n % 4 = 0) (d : Fin 64) (r : Fin 9) (q : Fin 256) :
    scr m c (n + 3) h3 (ix3 d r q)
      = Cert.Attn.kerAcc (logitK m c (bd ⟨n + 3, h3⟩ d) (bq ⟨n + 3, h3⟩ q)) (fun mk => varr m c (ix3 (bd ⟨n + 3, h3⟩ d) r mk)) := by
  have h2 : n + 2 < cfg0.N := by omega
  have h1 : n + 1 < cfg0.N := by omega
  have hn : n < cfg0.N := by omega
  have l3 : scr m c (n + 3) h3 = _ := scr_step m c (n + 2) h3 (by omega)
  have l2 : scr m c (n + 2) h2 = _ := scr_step m c (n + 1) h2 (by omega)
  have l1 : scr m c (n + 1) h1 = _ := scr_step m c n h1 (by omega)
  have l0 := scr_open m c n hn h0
  rw [l3, level, l2, level, l1, level, l0, level, pay1_apply]
  rw [part_eq m c ⟨n + 3, h3⟩ (n + 3) h3 3 (by show (n + 3) % 4 = 3; omega) rfl,
    part_eq m c ⟨n + 3, h3⟩ (n + 2) h2 2 (by show (n + 2) % 4 = 2; omega) (by show (n + 2) / 4 = (n + 3) / 4; omega),
    part_eq m c ⟨n + 3, h3⟩ (n + 1) h1 1 (by show (n + 1) % 4 = 1; omega) (by show (n + 1) / 4 = (n + 3) / 4; omega),
    part_eq m c ⟨n + 3, h3⟩ n hn 0 (by show n % 4 = 0; omega) (by show n / 4 = (n + 3) / 4; omega)]
  rfl

/-- At the last point of a key sweep the scratch entry is the full accumulator. -/
theorem scr_last (c : Dev nD) (t : Fin cfg0.N) (h3 : t.val % 4 = 3) (d : Fin 64) (r : Fin 9) (q : Fin 256) :
    scr m c t.val t.isLt (ix3 d r q)
      = Cert.Attn.kerAcc (logitK m c (bd t d) (bq t q)) (fun mk => varr m c (ix3 (bd t d) r mk)) := by
  obtain ⟨tv, ht⟩ := t
  have h3' : tv % 4 = 3 := h3
  obtain ⟨n, rfl⟩ : ∃ n, tv = n + 3 := ⟨tv - 3, by omega⟩
  exact scr_sweep m c n ht (by omega) d r q

/-- So the output block written there is the kernel's row. -/
theorem outblk_last (c : Dev nD) (t : Fin cfg0.N) (h3 : t.val % 4 = 3) (d : Fin 64) (h : Fin 8) (q : Fin 256) :
    (outsAt0 m c t.val t.isLt).1 (ix3 d h q)
      = Cert.Attn.kerRow (logitK m c (bd t d) (bq t q)) (fun mk => varr m c (ix3 (bd t d) (Fin.castSucc h) mk)) := by
  refine (congrFun (out_eq m c t h3) (ix3 d h q)).trans ?_
  rw [pay3_apply, scr_last m c t h3, scr_last m c t h3]
  rw [show (fun mk => varr m c (ix3 (bd t d) (Fin.last 8) mk)) = (fun _ => (1 : EReal)) from
    funext fun mk => varr_apply_ones m c _ mk]
  rfl

end Cert.KernelIdeal.Closed

end
-- ==== Proof.KFinal.lean ====
/-
  The kernel's output array after the region.

  The output window's block at a grid point is rows `64 (t/16) ..` and columns `256 (t/4%4) ..` of the [128, 8, 1024]
  array; it is written back exactly at the last point of each key sweep (`t % 4 = 3`), holding the kernel's row for
  each of its batch entries, heads and queries.  The eight sweeps' blocks tile the array, so the array ends as the
  one function `outV`: at (batch entry, head, query), the kernel's row of that entry's logits and value column.
-/
import proofs.«409010_j66297115181077_3_alg».proof.Proof.KClosed
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.HostIn Cert.KernelIdeal.Closed

variable (m : (ℓ : Loc nD τ sig) → Buf (Elt Ideal) ℓ)

/-- The output array as one function of the arrays the region finds. -/
def outV (c : Dev nD) : Vec Ideal S128x8x1024 .f32 := fun j =>
  Cert.Attn.kerRow (logitK m c ⟨(j 0).val, (j 0).isLt⟩ ⟨(j 2).val, (j 2).isLt⟩)
    (fun mk => varr m c (ix3 ⟨(j 0).val, (j 0).isLt⟩ (Fin.castSucc ⟨(j 1).val, (j 1).isLt⟩) mk))

theorem outV_apply (c : Dev nD) (D : Fin 128) (h : Fin 8) (n : Fin 1024) :
    outV m c (ix3 D h n) = Cert.Attn.kerRow (logitK m c D n) (fun mk => varr m c (ix3 D (Fin.castSucc h) mk)) := rfl

/-- The same, typed as the contents of the result buffer. -/
abbrev outG (c : Dev nD) : Buf (Elt Ideal) ((c : Thread nD τ).loc main_v19) := outV m c

/-- The output window's block index at a point: (batch half, 0, query block). -/
private theorem idxo : ∀ t : Fin cfg0.N,
    win0_4.index t 0 = t.val / 16 ∧ win0_4.index t 1 = 0 ∧ win0_4.index t 2 = t.val / 4 % 4 :=
  (by decide +kernel : ∀ t : Fin grid0.N, _)

/-- An entry of a point's block of the output function: the block's coordinates shifted by the block's offsets. -/
private theorem outG_blk (c : Dev nD) (t : Fin cfg0.N) (d : Fin 64) (h : Fin 8) (q : Fin 256) :
    outG m c (((cfg0.win 4).blk t).view.emb (ix3 d h q)) = outV m c (ix3 (bd t d) h (bq t q)) := by
  obtain ⟨e0, e1, e2⟩ := idxo t
  congr 1
  funext a
  apply Fin.ext
  match a with
  | ⟨0, _⟩ => show win0_4.index t 0 * 64 + 1 * d.val = 64 * (t.val / 16) + d.val; rw [e0]; omega
  | ⟨1, _⟩ => show win0_4.index t 1 * 8 + 1 * h.val = h.val; rw [e1]; omega
  | ⟨2, _⟩ => show win0_4.index t 2 * 256 + 1 * q.val = 256 * (t.val / 4 % 4) + q.val; rw [e2]; omega

/-- At the last point of a key sweep the output block the body leaves is the block of the output function. -/
private theorem outblk_eq (c : Dev nD) (t : Fin cfg0.N) (h3 : t.val % 4 = 3) (y : S64x8x256.Idx) :
    (outsAt0 m c t.val t.isLt).1 y = outG m c (((cfg0.win 4).blk t).view.emb y) := by
  obtain ⟨d, h, q, rfl⟩ : ∃ (d : Fin 64) (h : Fin 8) (q : Fin 256), y = ix3 d h q := ⟨y 0, y 1, y 2, eq_ix3 y⟩
  rw [outblk_last m c t h3 d h q, outG_blk m c t d h q, outV_apply]

/-- What a flushing point writes back is its block of `outV`. -/
theorem flushed_eq (c : Dev nD) (t : Fin cfg0.N) (hf : (cfg0.win 4).flush t = true) :
    (dats m 0 c).flushed 4 t = ((cfg0.win 4).blk t).view.read (Elt Ideal) (outG m c) := by
  have h3 : t.val % 4 = 3 := (flush0_4 t).mp hf
  show (cfg0.win 4).cut (grid0.coords t) ((dats m 0 c).after 4 t) = _
  rw [after0_4]
  funext y
  rw [View.read_apply]
  exact outblk_eq m c t h3 y

/-- An index of the array is in a point's block iff each coordinate is in the block's range on its axis. -/
private theorem mem_blk (t : Fin cfg0.N) (i : S128x8x1024.Idx) :
    i ∈ ((cfg0.win 4).blk t).view.set ↔ ∀ a : Fin 3, win0_4.index t a * S64x8x256.size a ≤ (i a).val
      ∧ (i a).val < win0_4.index t a * S64x8x256.size a + S64x8x256.size a := by
  show i ∈ ((View.whole main_v19).slice (win0_4.rect t)).set ↔ _
  rw [View.set_slice_whole, Rect.mem_set_unit]
  exact Iff.rfl

/-- Every index (D, h, n) of the array lies in the block of the flushing point with batch half D / 64,
    query block n / 256 and the last key block. -/
private theorem cover (i : S128x8x1024.Idx) :
    ∃ t : Fin cfg0.N, (cfg0.win 4).flush t = true ∧ i ∈ ((cfg0.win 4).blk t).view.set := by
  have hN : cfg0.N = 32 := N32
  have h0 : (i 0).val < 128 := (i 0).isLt
  have h1 : (i 1).val < 8 := (i 1).isLt
  have h2 : (i 2).val < 1024 := (i 2).isLt
  obtain ⟨tt, htv⟩ : ∃ tt : Fin cfg0.N, tt.val = 16 * ((i 0).val / 64) + 4 * ((i 2).val / 256) + 3 :=
    ⟨⟨16 * ((i 0).val / 64) + 4 * ((i 2).val / 256) + 3, by omega⟩, rfl⟩
  obtain ⟨e0, e1, e2⟩ := idxo tt
  refine ⟨tt, (flush0_4 tt).mpr (by omega), ?_⟩
  rw [mem_blk]
  intro a
  match a with
  | ⟨0, _⟩ =>
    show win0_4.index tt 0 * 64 ≤ (i 0).val ∧ (i 0).val < win0_4.index tt 0 * 64 + 64
    rw [e0, htv]; omega
  | ⟨1, _⟩ =>
    show win0_4.index tt 1 * 8 ≤ (i 1).val ∧ (i 1).val < win0_4.index tt 1 * 8 + 8
    rw [e1]; omega
  | ⟨2, _⟩ =>
    show win0_4.index tt 2 * 256 ≤ (i 2).val ∧ (i 2).val < win0_4.index tt 2 * 256 + 256
    rw [e2, htv]; omega

/-- The flushed blocks cover the array: it ends as `outV`. -/
theorem final_out (c : Dev nD) : (dats m 0 c).arrAt 4 cfg0.N = outG m c :=
  (dats m 0 c).arrAt_eq_of_cover 4 (outG m c) (flushed_eq m c) fun i => cover i

end Cert.KernelIdeal.Final

end
-- ==== Proof.KTail.lean ====
/-
  The kernel program's run, read to its result.

  After the region the program transposes the [128, 8, 1024] output to [128, 1024, 8], re-reads it row-major as
  [1024, 1024] and multiplies by the transposed output weight: `tail O w` below, one function of the output array and
  the weight.  Every weakly fair execution ends with the result buffer at `tail` of the region's final output array
  (the kernel's rows, `outV`) and the output weight as launched, the seven arguments unchanged.
-/
import proofs.«409010_j66297115181077_3_alg».proof.Proof.KFinal
import Idealize.ShloMosaic.Lib.StableHlo.Run

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.HostIn Cert.KernelIdeal.Final

variable (m : (ℓ : Loc nD τ sig) → Buf (Elt Ideal) ℓ) (ρ : Dev nD → PrngReg)

/-- The host operations after the region, as one function of the output array and the output weight. -/
def tail (O : FVec Ideal S128x8x1024 .f32) (w : FVec Ideal S128x1024 .f32) : FVec Ideal S1024x128 .f32 :=
  Host.dotGeneral dot_S1024x1024_S1024x128_S1024x128_1_0_0_1_n_n none
    (shapeCast S1024x1024 (transpose S128x1024x8 [0, 2, 1] O transposes_S128x8x1024_S128x1024x8_0_2_1) shapeCasts_S128x1024x8_S1024x1024)
    (transpose S1024x128 [1, 0] w transposes_S128x1024_S1024x128_1_0)

/-- The result buffer after the tail: the tail of the final output array and the weight as launched. -/
theorem result_eq (c : Dev nD) :
    Pipeline.afterTail₀ cfgs (dats m) 0 (V0 m) [hostOps1] c main_v23 = tail (outV m c) (awo m c) := by
  unfold Pipeline.afterTail₀
  show StableHlo.after hostOps1 _ (Proc.devRef .tc main_v23) = _
  after_results
  have e1 : Pipeline.withArrays (cfgs 0).spec c (V0 m c) (fun w => (dats m 0 c).arrAt w (cfgs 0).N) (Proc.tc.devRef main_v19) = outG m c :=
    (Pipeline.withArrays_arr spec0 launch0.win.arr_inj c _ _ 4).trans (final_out m c)
  have e2 : Pipeline.withArrays (cfgs 0).spec c (V0 m c) (fun w => (dats m 0 c).arrAt w (cfgs 0).N) (Proc.tc.devRef main_arg6) = awo m c :=
    (Pipeline.withArrays_of_ne _ c (V0 m c) _ main_arg6 (by decide)).trans (V_main_arg6 m c)
  rw [e1, e2]
  rfl

/-- The run: the result at the tail of the kernel's rows, the arguments unchanged. -/
theorem run : θ_run defs (onTc (τ := τ) (main (F := Ideal))) ⟨m, fun _ => 0, ρ⟩ (fun r => ∀ c : Dev nD,
      r.2.mem ((c.tc : Thread nD τ).loc main_v23) = tail (outV m c) (awo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.RefStages.lean ====
/-
  The reference's attention output, read at an index (over the extended reals).

  With `q = val_main_v2`, `k = val_main_v5`, `v = val_main_v8` the three projections re-read as [128, 1024, 8], the
  reference forms at batch entry `d`, query `n`, key `mk` the logit
      (∑ h, q[d, n, h] * k[d, mk, h]) * scale + b1[n, mk] + b2[n, mk],
  takes the row's maximum (a fold of `max` from `-∞`, and once more the maximum with `-∞`), exponentiates the
  differences, divides by their sum (from 0), and contracts with `v[d, mk, h]` over the keys.
-/
import proofs.«409010_j66297115181077_3_alg».proof.Proof.Gen.ReferenceIdeal.Read
import proofs.«409010_j66297115181077_3_alg».proof.Proof.AttnSpec
import Idealize.ShloMosaic.Lib.ValueIdx
import Idealize.ShloMosaic.PureOps.Reduce

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

/-- The scale word both programs multiply the raw logits by. -/
abbrev scaleW : EReal := Ideal.ofBits .f32 0x3DB504F3#32

/-- The reference's logit at batch entry `d`, query `n`, key `mk`. -/
def logit (x0 : (⟨S1024x128, .f32⟩ : BufTy).Contents (Elt Ideal)) (x1 x2 : (⟨S1024x1024, .f32⟩ : BufTy).Contents (Elt Ideal)) (x3 x4 : (⟨S1024x128, .f32⟩ : BufTy).Contents (Elt Ideal))
    (d : Fin 128) (n mk : Fin 1024) : EReal :=
  (∑ h : Fin 8, val_main_v2 (F := Ideal) x0 x3 (ix3 d n h) * val_main_v5 (F := Ideal) x0 x4 (ix3 d mk h)) * scaleW
    + x1 (ix2 n mk) + x2 (ix2 n mk)

section Stages

variable (x0 : (⟨S1024x128, .f32⟩ : BufTy).Contents (Elt Ideal)) (x1 x2 : (⟨S1024x1024, .f32⟩ : BufTy).Contents (Elt Ideal))
  (x3 x4 : (⟨S1024x128, .f32⟩ : BufTy).Contents (Elt Ideal))

/-- The word of `-∞` denotes `-∞`. -/
theorem ofBits_neg_inf : Ideal.ofBits .f32 0xFF800000#32 = ⊥ := by simp [Ideal.ofBits, Ideal.ieee]

/-- The scaled, twice-biased product at `(d, n, mk)` is the logit. -/
theorem v17_at (d : Fin 128) (n mk : Fin 1024) :
    val_main_v17 (F := Ideal) x0 x1 x2 x3 x4 (ix3 d n mk) = logit x0 x1 x2 x3 x4 d n mk := by
  have el : ∀ k : Fin 8, lidx_main_v9 (ix3 d n mk) k = ix3 d n k := fun k => funext fun a => Fin.ext (by
    match a with | ⟨0, _⟩ => rfl | ⟨1, _⟩ => rfl | ⟨2, _⟩ => rfl)
  have er : ∀ k : Fin 8, ridx_main_v9 (ix3 d n mk) k = ix3 d mk k := fun k => funext fun a => Fin.ext (by
    match a with | ⟨0, _⟩ => rfl | ⟨1, _⟩ => rfl | ⟨2, _⟩ => rfl)
  have e1 : idx_main_v12 (idx_main_v13 (ix3 d n mk)) = ix2 n mk := funext fun a => Fin.ext (by
    match a with | ⟨0, _⟩ => rfl | ⟨1, _⟩ => rfl)
  have e2 : idx_main_v15 (idx_main_v16 (ix3 d n mk)) = ix2 n mk := funext fun a => Fin.ext (by
    match a with | ⟨0, _⟩ => rfl | ⟨1, _⟩ => rfl)
  rw [val_main_v17_apply, val_main_v14_apply, val_main_v11_apply, val_main_v9_apply, val_main_v10_apply,
    val_main_cst_apply, val_main_v13_apply, val_main_v12_apply, val_main_v16_apply, val_main_v15_apply, e1, e2]
  simp only [el, er]
  rfl

/-- The row's fold of `max` from `-∞` over the keys. -/
theorem v18_at (d : Fin 128) (n : Fin 1024) :
    val_main_v18 (F := Ideal) x0 x1 x2 x3 x4 (ix2 d n)
      = (Finset.univ : Finset (Fin 1024)).fold max ⊥ (logit x0 x1 x2 x3 x4 d n) := by
  have hR : S128x1024x1024.Reduces [2] S128x1024 := by decide
  have hl : ∀ k : Fin 1024, hR.lift (ix2 d n) k = ix3 d n k := fun k => funext fun a => Fin.ext (by
    match a with | ⟨0, _⟩ => rfl | ⟨1, _⟩ => rfl | ⟨2, _⟩ => rfl)
  have hf : (val_main_v17 (F := Ideal) x0 x1 x2 x3 x4 ∘ hR.lift (ix2 d n)) = logit x0 x1 x2 x3 x4 d n :=
    funext fun (k : Fin 1024) => by
      show val_main_v17 (F := Ideal) x0 x1 x2 x3 x4 (hR.lift (ix2 d n) k) = _
      rw [hl k, v17_at]
  unfold val_main_v18
  rw [Host.reduce_eq_fold_single (FloatOps.maximumf (F := Ideal) (φ := .f32)) _ _ reducesTo_S128x1024x1024_S128x1024_d2 hR h_S_,
    hf, val_main_cst_0_apply, Ideal.ofBits_def, ofBits_neg_inf]
  rfl

/-- The reference's row maximum. -/
theorem v20_at (d : Fin 128) (n : Fin 1024) :
    val_main_v20 (F := Ideal) x0 x1 x2 x3 x4 (ix2 d n) = Cert.Attn.rowMax (logit x0 x1 x2 x3 x4 d n) := by
  rw [val_main_v20_apply, val_main_v19_apply, val_main_cst_1_apply, v18_at, Ideal.ofBits_def, ofBits_neg_inf]
  rfl

/-- The exponential of the logit less the row maximum. -/
theorem v24_at (d : Fin 128) (n mk : Fin 1024) :
    val_main_v24 (F := Ideal) x0 x1 x2 x3 x4 (ix3 d n mk)
      = Ideal.exp (logit x0 x1 x2 x3 x4 d n mk - Cert.Attn.rowMax (logit x0 x1 x2 x3 x4 d n)) := by
  have e : idx_main_v21 (idx_main_v22 (ix3 d n mk)) = ix2 d n := funext fun a => Fin.ext (by
    match a with | ⟨0, _⟩ => rfl | ⟨1, _⟩ => rfl)
  rw [val_main_v24_apply, val_main_v23_apply, val_main_v22_apply, val_main_v21_apply, e, v20_at, v17_at]
  rfl

/-- The row's sum of exponentials, from zero. -/
theorem v25_at (d : Fin 128) (n : Fin 1024) :
    val_main_v25 (F := Ideal) x0 x1 x2 x3 x4 (ix2 d n)
      = 0 + ∑ mk : Fin 1024, Ideal.exp (logit x0 x1 x2 x3 x4 d n mk - Cert.Attn.rowMax (logit x0 x1 x2 x3 x4 d n)) := by
  have e : ∀ k : Fin 1024, idx_main_v25 (ix2 d n) k = ix3 d n k := fun k => funext fun a => Fin.ext (by
    match a with | ⟨0, _⟩ => rfl | ⟨1, _⟩ => rfl | ⟨2, _⟩ => rfl)
  rw [val_main_v25_apply, val_main_cst_2_apply, Ideal.ofBits_def, Ideal.ofBits_zero_f32]
  simp only [e, v24_at]

/-- The softmax weight at `(d, n, mk)`. -/
theorem v28_at (d : Fin 128) (n mk : Fin 1024) :
    val_main_v28 (F := Ideal) x0 x1 x2 x3 x4 (ix3 d n mk)
      = Ideal.div (Ideal.exp (logit x0 x1 x2 x3 x4 d n mk - Cert.Attn.rowMax (logit x0 x1 x2 x3 x4 d n)))
          (0 + ∑ mk' : Fin 1024, Ideal.exp (logit x0 x1 x2 x3 x4 d n mk' - Cert.Attn.rowMax (logit x0 x1 x2 x3 x4 d n))) := by
  have e : idx_main_v26 (idx_main_v27 (ix3 d n mk)) = ix2 d n := funext fun a => Fin.ext (by
    match a with | ⟨0, _⟩ => rfl | ⟨1, _⟩ => rfl)
  rw [val_main_v28_apply, val_main_v27_apply, val_main_v26_apply, e, v25_at, v24_at]
  rfl

end Stages

/-- The reference's attention output at `(d, n, h)` is the softmax-weighted sum of the value column. -/
theorem attn_apply (x0 : (⟨S1024x128, .f32⟩ : BufTy).Contents (Elt Ideal)) (x1 x2 : (⟨S1024x1024, .f32⟩ : BufTy).Contents (Elt Ideal)) (x3 x4 : (⟨S1024x128, .f32⟩ : BufTy).Contents (Elt Ideal)) (x5 : (⟨S1024x128, .f32⟩ : BufTy).Contents (Elt Ideal))
    (d : Fin 128) (n : Fin 1024) (h : Fin 8) :
    val_main_v29 (F := Ideal) x0 x1 x2 x3 x4 x5 (ix3 d n h)
      = Cert.Attn.refRow (logit x0 x1 x2 x3 x4 d n) (fun mk => val_main_v8 (F := Ideal) x0 x5 (ix3 d mk h)) := by
  have el : ∀ k : Fin 1024, lidx_main_v29 (ix3 d n h) k = ix3 d n k := fun k => funext fun a => Fin.ext (by
    match a with | ⟨0, _⟩ => rfl | ⟨1, _⟩ => rfl | ⟨2, _⟩ => rfl)
  have er : ∀ k : Fin 1024, ridx_main_v29 (ix3 d n h) k = ix3 d k h := fun k => funext fun a => Fin.ext (by
    match a with | ⟨0, _⟩ => rfl | ⟨1, _⟩ => rfl | ⟨2, _⟩ => rfl)
  rw [val_main_v29_apply]
  simp only [el, er, v28_at]
  rfl

end Cert.ReferenceIdeal.Stages

end
-- ==== Proof.Finite.lean ====
/-
  What the precondition gives: every entry of every input is a real number.

  The precondition tests `|x| < +∞` at every entry of each of the seven arrays and conjoins the seven answers.  An
  extended real whose absolute value is below `+∞` is neither infinity, hence a real.  From there the scale (a finite
  binary fraction) is a real, and every entry of a projection `x · wᵀ` of real arrays is a finite sum of products of
  reals, hence a real.
-/
import proofs.«409010_j66297115181077_3_alg».proof.Pre_finite_inputs
import proofs.«409010_j66297115181077_3_alg».proof.Proof.Gen.Pre_finite_inputs
import proofs.«409010_j66297115181077_3_alg».proof.Proof.KHost
import proofs.«409010_j66297115181077_3_alg».proof.Proof.AttnSpec
import Idealize.ShloMosaic.Lib.ReduceAll
import Idealize.ShloMosaic.Lib.Pipeline.Value
import Idealize.ShloMosaic.PureOps.Ideal.Laws

noncomputable section

namespace Cert.Finite

open Idealize.ShloMosaic

/-- An extended real is a real number. -/
def IsReal (x : EReal) : Prop := ∃ r : ℝ, x = (r : EReal)

/-- The word with all exponent bits set and no fraction bits denotes `+∞`. -/
private theorem ofBits_inf : Ideal.ofBits .f32 0x7F800000#32 = ⊤ := by simp [Ideal.ofBits, Ideal.ieee]

/-- An extended real whose absolute value `max x (-x)` is below `+∞` is a real: at `⊥` and at `⊤` that maximum
    is `⊤`. -/
private theorem isReal_of_abs_lt (x : EReal) (h : Ideal.cmp .olt (max x (-x)) ⊤ = 1#1) : IsReal x := by
  have hlt : max x (-x) < ⊤ := by
    by_contra hn
    simp [Ideal.cmp, hn] at h
  induction x using EReal.rec with
  | bot => simp at hlt
  | top => simp at hlt
  | coe r => exact ⟨r, rfl⟩

/-- One conjunct of the precondition: if the test `|a| < +∞`, reduced by `and` over every axis, is 1, then every
    entry of `a` is a real. -/
private theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf a)
          (broadcastInDim S ![] hb (constant Cert.Pre_finite_inputs.S_ .f32 0x7F800000#32))) init hr hu j = 1#1)
    (i : S.Idx) : IsReal (a i) := by
  -- the rank-0 result has one index
  haveI : Subsingleton Cert.Pre_finite_inputs.S_.Idx := ⟨fun a b => funext fun d => d.elim0⟩
  -- so the conjunction being 1 makes the test 1 at every entry
  have h := Host.reduce_andi_all _ init hr hu j e i
  rw [ValueIdx.cmpf_apply, ValueIdx.broadcastInDim_scalar_apply, ValueIdx.constant_apply, ofBits_inf] at h
  exact isReal_of_abs_lt (a i) h

/-- A product of reals is a real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is a real, over any index type. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨r, hr⟩ := h a
    obtain ⟨t, ht⟩ := ih
    exact ⟨r + t, by rw [hr, ht, EReal.coe_add]⟩

/-- Under the precondition every entry of every input array is a real. -/
theorem real_of_pre (a0 : FVec Ideal Cert.Pre_finite_inputs.S1024x128 .f32) (a1 a2 : FVec Ideal Cert.Pre_finite_inputs.S1024x1024 .f32)
    (a3 a4 a5 : FVec Ideal Cert.Pre_finite_inputs.S1024x128 .f32) (a6 : FVec Ideal Cert.Pre_finite_inputs.S128x1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  -- the precondition at its one index: seven tests conjoined
  have h0 := congrFun h ValueIdx.ix0
  dsimp only [Cert.Pre_finite_inputs.fn, Cert.Pre_finite_inputs.fn_part1] at h0
  -- a conjunction of bits is 1 exactly when both are
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6⟩

/-- The scale word denotes a real. -/
theorem scale_real : IsReal (Ideal.ofBits .f32 0x3DB504F3#32) := by
  -- the exponent field is 123, neither all ones nor zero: a normal number, a signed binary fraction
  unfold IsReal
  simp [Ideal.ofBits, Ideal.ieee, -EReal.coe_mul]

/-- Every entry of a projection of real arrays is a real. -/
theorem proj_real (x w : FVec Ideal Cert.KernelIdeal.S1024x128 .f32) (hx : ∀ i, IsReal (x i)) (hw : ∀ i, IsReal (w i))
    (i : Cert.KernelIdeal.S128x1024x8.Idx) : IsReal (Cert.KernelIdeal.HostIn.proj x w i) := by
  -- the re-reading and the transposition only re-index; the product at an index is a finite sum of products
  unfold Cert.KernelIdeal.HostIn.proj shapeCast
  simp only [Host.dotGeneral]
  rw [Ideal.dotGeneral_apply]
  exact isReal_sum _ _ fun k => isReal_mul (hx _) (hw _)

end Cert.Finite

end
-- ==== Proof.Core.lean ====
/-
  The attention core: the kernel's output array and the reference's attention output agree entry by entry.

  At batch entry `D`, head `h`, query `n` the kernel's array holds the kernel's row of the logits
  `(∑ h', k[D,h',mk] * q[D,h',n]) * scale + (b1[n,mk] + b2[n,mk])` and the value column `v[D,mk,h]`; regrouped
  (products commute, sums of extended reals associate) these are the reference's logits, every one a real under the
  precondition, as are the values; so the kernel's row is the reference's row (the law of the attention row), which
  is the reference's output at `(D, n, h)`.
-/
import proofs.«409010_j66297115181077_3_alg».proof.Proof.KFinal
import proofs.«409010_j66297115181077_3_alg».proof.Proof.RefStages
import proofs.«409010_j66297115181077_3_alg».proof.Proof.Finite

noncomputable section

namespace Cert.Core

open Idealize.ShloMosaic Idealize.ShloMosaic.TcCoe Idealize.SL.Sem Idealize.ShloMosaic.ValueIdx
open Cert.KernelIdeal Cert.KernelIdeal.Gen Cert.KernelIdeal.Blocks Cert.KernelIdeal.HostIn Cert.KernelIdeal.Closed Cert.KernelIdeal.Final

variable (m : (ℓ : Loc nD τ sig) → Buf (Elt Ideal) ℓ)

/-- The kernel's projection term is the reference's first-stage projection, for each of the three weights. -/
theorem proj_q (x w : FVec Ideal S1024x128 .f32) : proj x w = Cert.ReferenceIdeal.Read.val_main_v2 (F := Ideal) x w := by
  rfl
theorem proj_k (x w : FVec Ideal S1024x128 .f32) : proj x w = Cert.ReferenceIdeal.Read.val_main_v5 (F := Ideal) x w := by
  rfl
theorem proj_v (x w : FVec Ideal S1024x128 .f32) : proj x w = Cert.ReferenceIdeal.Read.val_main_v8 (F := Ideal) x w := by
  rfl

/-- Under the precondition the kernel's output entry is the reference's attention output entry. -/
theorem core (c : Dev nD)
    (hpre : Cert.Pre_finite_inputs.fn (F := Ideal) (ax m c) (ab1 m c) (ab2 m c) (awq m c) (awk m c) (awv m c) (awo m c) = fun _ => 1#1)
    (D : Fin 128) (h : Fin 8) (n : Fin 1024) :
    outV m c (ix3 D h n)
      = Cert.ReferenceIdeal.Read.val_main_v29 (F := Ideal) (ax m c) (ab1 m c) (ab2 m c) (awq m c) (awk m c) (awv m c) (ix3 D n h) := by
  obtain ⟨r0, r1, r2, r3, r4, r5, _⟩ := Cert.Finite.real_of_pre _ _ _ _ _ _ _ hpre
  -- the kernel's logit row is the reference's: products commute, sums associate
  have hlog : logitK m c D n
      = Cert.ReferenceIdeal.Stages.logit (ax m c) (ab1 m c) (ab2 m c) (awq m c) (awk m c) D n := funext fun mk => by
    have hs : (∑ h' : Fin 8, karr m c (ix3 D h' mk) * qarr m c (ix3 D h' n))
        = ∑ h' : Fin 8, Cert.ReferenceIdeal.Read.val_main_v5 (F := Ideal) (ax m c) (awk m c) (ix3 D mk h')
            * Cert.ReferenceIdeal.Read.val_main_v2 (F := Ideal) (ax m c) (awq m c) (ix3 D n h') :=
      Finset.sum_congr rfl fun h' _ => congrArg₂ (fun s t => s * t)
        ((karr_apply m c D h' mk).trans (congrFun (proj_k _ _) _))
        ((qarr_apply m c D h' n).trans (congrFun (proj_q _ _) _))
    show (∑ h' : Fin 8, karr m c (ix3 D h' mk) * qarr m c (ix3 D h' n)) * Ideal.ofBits .f32 0x3DB504F3#32
          + barr m c (ix2 mk n)
        = (∑ h' : Fin 8, Cert.ReferenceIdeal.Read.val_main_v2 (F := Ideal) (ax m c) (awq m c) (ix3 D n h')
            * Cert.ReferenceIdeal.Read.val_main_v5 (F := Ideal) (ax m c) (awk m c) (ix3 D mk h')) * Ideal.ofBits .f32 0x3DB504F3#32
          + ab1 m c (ix2 n mk) + ab2 m c (ix2 n mk)
    exact (congrArg₂ (fun s t => s * Ideal.ofBits .f32 0x3DB504F3#32 + t) hs (barr_apply m c mk n)).trans
      (Cert.Attn.logit_regroup (Ideal.ofBits .f32 0x3DB504F3#32) (ab1 m c (ix2 n mk)) (ab2 m c (ix2 n mk))
        (fun h' => Cert.ReferenceIdeal.Read.val_main_v2 (F := Ideal) (ax m c) (awq m c) (ix3 D n h'))
        (fun h' => Cert.ReferenceIdeal.Read.val_main_v5 (F := Ideal) (ax m c) (awk m c) (ix3 D mk h')))
  -- the kernel's value column is the reference's
  have hval : (fun mk => varr m c (ix3 D (Fin.castSucc h) mk))
      = fun mk => Cert.ReferenceIdeal.Read.val_main_v8 (F := Ideal) (ax m c) (awv m c) (ix3 D mk h) :=
    funext fun mk => (varr_apply_head m c D h mk).trans (congrFun (proj_v _ _) _)
  -- under the precondition every logit and every value is a real
  have hla : ∀ mk, ∃ r : ℝ, Cert.ReferenceIdeal.Stages.logit (ax m c) (ab1 m c) (ab2 m c) (awq m c) (awk m c) D n mk = (r : EReal) :=
    fun mk => by
      unfold Cert.ReferenceIdeal.Stages.logit
      exact Cert.Attn.logit_real (Ideal.ofBits .f32 0x3DB504F3#32) (ab1 m c (ix2 n mk)) (ab2 m c (ix2 n mk))
        (fun h' => Cert.ReferenceIdeal.Read.val_main_v2 (F := Ideal) (ax m c) (awq m c) (ix3 D n h'))
        (fun h' => Cert.ReferenceIdeal.Read.val_main_v5 (F := Ideal) (ax m c) (awk m c) (ix3 D mk h'))
        Cert.Finite.scale_real (r1 _) (r2 _)
        (fun i => by rw [← proj_q]; exact Cert.Finite.proj_real _ _ r0 r3 _)
        (fun i => by rw [← proj_k]; exact Cert.Finite.proj_real _ _ r0 r4 _)
  have hlv : ∀ mk, ∃ r : ℝ, Cert.ReferenceIdeal.Read.val_main_v8 (F := Ideal) (ax m c) (awv m c) (ix3 D mk h) = (r : EReal) :=
    fun mk => by rw [← proj_v]; exact Cert.Finite.proj_real _ _ r0 r5 _
  choose a ha using hla
  choose v hv using hlv
  have ea : Cert.ReferenceIdeal.Stages.logit (ax m c) (ab1 m c) (ab2 m c) (awq m c) (awk m c) D n = fun mk => (a mk : EReal) :=
    funext ha
  have ev : (fun mk => Cert.ReferenceIdeal.Read.val_main_v8 (F := Ideal) (ax m c) (awv m c) (ix3 D mk h)) = fun mk => (v mk : EReal) :=
    funext hv
  -- so the law of the attention row applies
  rw [outV_apply, Cert.ReferenceIdeal.Stages.attn_apply, hlog, hval, ea, ev]
  exact Cert.Attn.kerRow_eq_refRow a v

end Cert.Core

end
-- ==== Proof.lean ====
/-
  Attention with a fused softmax against its plain reference, over the extended reals.

  Both programs project the input by three weight matrices and re-read the projections as [128, 1024, 8] (batch
  entry, position, head).  The reference forms the logits `(q · kᵀ) * scale + b1 + b2`, applies a softmax over the
  keys (subtracting the row maximum), contracts with the values, re-reads the result row-major as [1024, 1024] and
  multiplies by the transposed output weight.  The kernel works on the transposed layout [128, 8, 1024]: per batch
  half and query block it sweeps four key blocks, accumulating `vaug · exp (logits)` in a scratch — the values
  augmented by a row of ones, so that row 8 accumulates the softmax denominator — and at the last key block writes
  the numerator rows times the reciprocal of the denominator row; the same tail follows.

  The frames of the two kernel programs are the generated ones; the reference's is its generated run.  The
  idealization rewrote nothing.  For the equivalence: the kernel's final output array is, entry by entry, the
  kernel's attention row (the accumulation read off the frame's point-by-point contents, by induction over the
  points, the blocks tiling the array); under the precondition every logit and value is a real, and for real logits
  `exp (a - M) / ∑ exp (a - M) = exp a / ∑ exp a`, so the kernel's row is the reference's; the two tails are one
  function of equal arrays.
-/
import proofs.«409010_j66297115181077_3_alg».proof.Defs
import proofs.«409010_j66297115181077_3_alg».proof.Proof.Gen.Kernel
import proofs.«409010_j66297115181077_3_alg».proof.Proof.Gen.Kernel.Frame
import proofs.«409010_j66297115181077_3_alg».proof.Proof.Gen.KernelIdeal
import proofs.«409010_j66297115181077_3_alg».proof.Proof.Gen.KernelIdeal.Frame
import proofs.«409010_j66297115181077_3_alg».proof.Proof.Gen.ReferenceIdeal
import proofs.«409010_j66297115181077_3_alg».proof.Proof.Gen.ReferenceIdeal.Run
import proofs.«409010_j66297115181077_3_alg».proof.Proof.Gen.ReferenceIdeal.Read
import proofs.«409010_j66297115181077_3_alg».proof.Proof.Gen.Pre_finite_inputs
import proofs.«409010_j66297115181077_3_alg».proof.Proof.KTail
import proofs.«409010_j66297115181077_3_alg».proof.Proof.Core
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The transposed kernel output is the reference's attention output, as arrays. -/
theorem attn_arrays (m : (ℓ : Loc Cert.KernelIdeal.nD Cert.KernelIdeal.τ Cert.KernelIdeal.sig) → Buf (Elt Ideal) ℓ)
    (hpre : Cert.Pre_KernelIdeal m) (c : Dev Cert.KernelIdeal.nD) :
    transpose Cert.KernelIdeal.S128x1024x8 [0, 2, 1] (Cert.KernelIdeal.Final.outV m c)
        Cert.KernelIdeal.Facts₀.transposes_S128x8x1024_S128x1024x8_0_2_1
      = Cert.ReferenceIdeal.Read.val_main_v29 (F := Ideal) (Cert.KernelIdeal.HostIn.ax m c) (Cert.KernelIdeal.HostIn.ab1 m c)
          (Cert.KernelIdeal.HostIn.ab2 m c) (Cert.KernelIdeal.HostIn.awq m c) (Cert.KernelIdeal.HostIn.awk m c)
          (Cert.KernelIdeal.HostIn.awv m c) := by
  funext i
  obtain ⟨D, n, h, rfl⟩ : ∃ (D : Fin 128) (n : Fin 1024) (h : Fin 8), i = ix3 D n h := ⟨i 0, i 1, i 2, eq_ix3 i⟩
  rw [transpose_ix3_021_apply]
  exact Cert.Core.core m c (hpre c) D h n

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Tail.tail (Cert.KernelIdeal.Final.outV m c) (Cert.KernelIdeal.HostIn.awo m c),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2.1, (hagree c).2.2.2.2.2.2]
  unfold Cert.ReferenceIdeal.Read.val_main_v32 Cert.ReferenceIdeal.Read.val_main_v30 Cert.ReferenceIdeal.Read.val_main_v31
    Cert.KernelIdeal.Tail.tail
  beta_reduce
  rw [attn_arrays m hpre c]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
